-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S1x200x8 : Shape := ⟨3, ![1, 200, 8]⟩
abbrev S1x1x256 : Shape := ⟨3, ![1, 1, 256]⟩
abbrev S1x200x200 : Shape := ⟨3, ![1, 200, 200]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S128x256 : Shape := ⟨2, ![128, 256]⟩

abbrev nBuf : Space → Nat
  | .hbm => 29
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x8, .bf16⟩
  | .hbm, ⟨14, _⟩ => ⟨S8x256, .bf16⟩
  | .hbm, ⟨15, _⟩ => ⟨S512x256, .bf16⟩
  | .hbm, ⟨16, _⟩ => ⟨S512x256, .bf16⟩
  | .hbm, ⟨17, _⟩ => ⟨S512x256, .bf16⟩
  | .hbm, ⟨18, _⟩ => ⟨S256x256, .bf16⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S128x1x256, .f32⟩
  | .hbm, ⟨27, _⟩ => ⟨S128x200x200, .f32⟩
  | .hbm, ⟨28, _⟩ => ⟨S128x256, .f32⟩
  | .local _ .vmem, ⟨0, _⟩ => ⟨S1x200x8, .bf16⟩
  | .local _ .vmem, ⟨1, _⟩ => ⟨S1x200x8, .bf16⟩
  | .local _ .vmem, ⟨2, _⟩ => ⟨S8x256, .bf16⟩
  | .local _ .vmem, ⟨3, _⟩ => ⟨S1x256, .f32⟩
  | .local _ .vmem, ⟨4, _⟩ => ⟨S512x256, .bf16⟩
  | .local _ .vmem, ⟨5, _⟩ => ⟨S1x256, .f32⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | .local _ .vmem, ⟨16, _⟩ => ⟨S1x200x200, .f32⟩
  | .local _ .vmem, ⟨17, _⟩ => ⟨S1x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S256_S1x256 : S256.ShapeCasts S1x256
  inb_S1x200x8_S1x200x8_0_0_0 : ∀ a, (![0, 0, 0] : Fin 3 → Nat) a + S1x200x8.size a ≤ S1x200x8.size a
  h_S1x200x8 : 0 < S1x200x8.numel
  shapeCasts_S1x200x8_S200x8 : S1x200x8.ShapeCasts S200x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  reduces_S200x200_S200 : S200x200.Reduces [1] S200
  shapeCasts_S200_S200x1 : S200.ShapeCasts S200x1
  broadcasts_S200x1_S200x200 : S200x1.Broadcasts S200x200
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x256_o0_0_S256x256 : S512x256.Slices ![0, 0] S256x256
  slices_S512x256_o256_0_S256x256 : S512x256.Slices ![256, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S200x256_S256 : S200x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x200x200_S1x200x200_0_0_0 : ∀ a, (![0, 0, 0] : Fin 3 → Nat) a + S1x200x200.size a ≤ S1x200x200.size a
  h_S1x200x200 : 0 < S1x200x200.numel
  shapeCasts_S1x200x200_S200x200 : S1x200x200.ShapeCasts S200x200
  shapeCasts_S200x200_S1x200x200 : S200x200.ShapeCasts S1x200x200
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x8.size a ≤ S128x200x8.size a
  hwx0_0 : ∀ i : grid0.Coords, EltTy.bits .bf16 = 32 ∨ (Rect.block (s := S128x200x8) S1x200x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .bf16 = 32 ∨ (Rect.block (s := S8x256) S8x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x256.size a ≤ S128x1x256.size a
  hwx0_13 : ∀ i : grid0.Coords, EltTy.bits .f32 = 32 ∨ (Rect.block (s := S128x1x256) S1x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x200x200.size a ≤ S128x200x200.size a
  hwx0_14 : ∀ i : grid0.Coords, EltTy.bits .f32 = 32 ∨ (Rect.block (s := S128x200x200) S1x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_v0) S1x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13_0) S1x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13_1) S1x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.KernelBlocks.lean ====
/- A table: each of the kernel's twelve weight and bias windows stages the WHOLE of its array at every grid point
   (its printed index map is zero on both axes over the grid, decided), so its block at a point is the array. -/
import proofs.«149841_g85813446574462_cont_9to1c4b_288_7_alg».proof.Proof.Gen.KernelIdeal.Frame
import Idealize.ShloMosaic.Lib.Pipeline.Value

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem idx1 : ∀ t : Fin cfg0.N, win0_1.index t (0 : Fin 2) = 0 ∧ win0_1.index t (1 : Fin 2) = 0 :=
  (by decide +kernel : ∀ t : Fin grid0.N, _)

/-- Window 1 stages the whole of its array at every point. -/
theorem iblk1_eq (c : Dev nD) (t : Fin cfg0.N) :
    (iblk m c 1 t : Vec F S8x256 .bf16) = (V m c main_v1 : S8x256.Idx → F .bf16) := by
  obtain ⟨e0, e1⟩ := idx1 t
  funext y
  unfold iblk
  rw [View.read_apply]
  show V m c main_v1 _ = V m c main_v1 _
  congr 1
  funext a
  apply Fin.ext
  match a with
  | ⟨0, _⟩ => show win0_1.index t 0 * 8 + 1 * (y 0).val = (y 0).val; rw [e0]; omega
  | ⟨1, _⟩ => show win0_1.index t 1 * 256 + 1 * (y 1).val = (y 1).val; rw [e1]; omega

theorem idx2 : ∀ t : Fin cfg0.N, win0_2.index t (0 : Fin 2) = 0 ∧ win0_2.index t (1 : Fin 2) = 0 :=
  (by decide +kernel : ∀ t : Fin grid0.N, _)

/-- Window 2 stages the whole of its array at every point. -/
theorem iblk2_eq (c : Dev nD) (t : Fin cfg0.N) :
    (iblk m c 2 t : Vec F S1x256 .f32) = (V m c main_v7 : S1x256.Idx → F .f32) := by
  obtain ⟨e0, e1⟩ := idx2 t
  funext y
  unfold iblk
  rw [View.read_apply]
  show V m c main_v7 _ = V m c main_v7 _
  congr 1
  funext a
  apply Fin.ext
  match a with
  | ⟨0, _⟩ => show win0_2.index t 0 * 1 + 1 * (y 0).val = (y 0).val; rw [e0]; omega
  | ⟨1, _⟩ => show win0_2.index t 1 * 256 + 1 * (y 1).val = (y 1).val; rw [e1]; omega

theorem idx3 : ∀ t : Fin cfg0.N, win0_3.index t (0 : Fin 2) = 0 ∧ win0_3.index t (1 : Fin 2) = 0 :=
  (by decide +kernel : ∀ t : Fin grid0.N, _)

/-- Window 3 stages the whole of its array at every point. -/
theorem iblk3_eq (c : Dev nD) (t : Fin cfg0.N) :
    (iblk m c 3 t : Vec F S512x256 .bf16) = (V m c main_v2 : S512x256.Idx → F .bf16) := by
  obtain ⟨e0, e1⟩ := idx3 t
  funext y
  unfold iblk
  rw [View.read_apply]
  show V m c main_v2 _ = V m c main_v2 _
  congr 1
  funext a
  apply Fin.ext
  match a with
  | ⟨0, _⟩ => show win0_3.index t 0 * 512 + 1 * (y 0).val = (y 0).val; rw [e0]; omega
  | ⟨1, _⟩ => show win0_3.index t 1 * 256 + 1 * (y 1).val = (y 1).val; rw [e1]; omega

theorem idx4 : ∀ t : Fin cfg0.N, win0_4.index t (0 : Fin 2) = 0 ∧ win0_4.index t (1 : Fin 2) = 0 :=
  (by decide +kernel : ∀ t : Fin grid0.N, _)

/-- Window 4 stages the whole of its array at every point. -/
theorem iblk4_eq (c : Dev nD) (t : Fin cfg0.N) :
    (iblk m c 4 t : Vec F S1x256 .f32) = (V m c main_v8 : S1x256.Idx → F .f32) := by
  obtain ⟨e0, e1⟩ := idx4 t
  funext y
  unfold iblk
  rw [View.read_apply]
  show V m c main_v8 _ = V m c main_v8 _
  congr 1
  funext a
  apply Fin.ext
  match a with
  | ⟨0, _⟩ => show win0_4.index t 0 * 1 + 1 * (y 0).val = (y 0).val; rw [e0]; omega
  | ⟨1, _⟩ => show win0_4.index t 1 * 256 + 1 * (y 1).val = (y 1).val; rw [e1]; omega

theorem idx5 : ∀ t : Fin cfg0.N, win0_5.index t (0 : Fin 2) = 0 ∧ win0_5.index t (1 : Fin 2) = 0 :=
  (by decide +kernel : ∀ t : Fin grid0.N, _)

/-- Window 5 stages the whole of its array at every point. -/
theorem iblk5_eq (c : Dev nD) (t : Fin cfg0.N) :
    (iblk m c 5 t : Vec F S512x256 .bf16) = (V m c main_v3 : S512x256.Idx → F .bf16) := by
  obtain ⟨e0, e1⟩ := idx5 t
  funext y
  unfold iblk
  rw [View.read_apply]
  show V m c main_v3 _ = V m c main_v3 _
  congr 1
  funext a
  apply Fin.ext
  match a with
  | ⟨0, _⟩ => show win0_5.index t 0 * 512 + 1 * (y 0).val = (y 0).val; rw [e0]; omega
  | ⟨1, _⟩ => show win0_5.index t 1 * 256 + 1 * (y 1).val = (y 1).val; rw [e1]; omega

theorem idx6 : ∀ t : Fin cfg0.N, win0_6.index t (0 : Fin 2) = 0 ∧ win0_6.index t (1 : Fin 2) = 0 :=
  (by decide +kernel : ∀ t : Fin grid0.N, _)

/-- Window 6 stages the whole of its array at every point. -/
theorem iblk6_eq (c : Dev nD) (t : Fin cfg0.N) :
    (iblk m c 6 t : Vec F S1x256 .f32) = (V m c main_v9 : S1x256.Idx → F .f32) := by
  obtain ⟨e0, e1⟩ := idx6 t
  funext y
  unfold iblk
  rw [View.read_apply]
  show V m c main_v9 _ = V m c main_v9 _
  congr 1
  funext a
  apply Fin.ext
  match a with
  | ⟨0, _⟩ => show win0_6.index t 0 * 1 + 1 * (y 0).val = (y 0).val; rw [e0]; omega
  | ⟨1, _⟩ => show win0_6.index t 1 * 256 + 1 * (y 1).val = (y 1).val; rw [e1]; omega

theorem idx7 : ∀ t : Fin cfg0.N, win0_7.index t (0 : Fin 2) = 0 ∧ win0_7.index t (1 : Fin 2) = 0 :=
  (by decide +kernel : ∀ t : Fin grid0.N, _)

/-- Window 7 stages the whole of its array at every point. -/
theorem iblk7_eq (c : Dev nD) (t : Fin cfg0.N) :
    (iblk m c 7 t : Vec F S512x256 .bf16) = (V m c main_v4 : S512x256.Idx → F .bf16) := by
  obtain ⟨e0, e1⟩ := idx7 t
  funext y
  unfold iblk
  rw [View.read_apply]
  show V m c main_v4 _ = V m c main_v4 _
  congr 1
  funext a
  apply Fin.ext
  match a with
  | ⟨0, _⟩ => show win0_7.index t 0 * 512 + 1 * (y 0).val = (y 0).val; rw [e0]; omega
  | ⟨1, _⟩ => show win0_7.index t 1 * 256 + 1 * (y 1).val = (y 1).val; rw [e1]; omega

theorem idx8 : ∀ t : Fin cfg0.N, win0_8.index t (0 : Fin 2) = 0 ∧ win0_8.index t (1 : Fin 2) = 0 :=
  (by decide +kernel : ∀ t : Fin grid0.N, _)

/-- Window 8 stages the whole of its array at every point. -/
theorem iblk8_eq (c : Dev nD) (t : Fin cfg0.N) :
    (iblk m c 8 t : Vec F S1x256 .f32) = (V m c main_v10 : S1x256.Idx → F .f32) := by
  obtain ⟨e0, e1⟩ := idx8 t
  funext y
  unfold iblk
  rw [View.read_apply]
  show V m c main_v10 _ = V m c main_v10 _
  congr 1
  funext a
  apply Fin.ext
  match a with
  | ⟨0, _⟩ => show win0_8.index t 0 * 1 + 1 * (y 0).val = (y 0).val; rw [e0]; omega
  | ⟨1, _⟩ => show win0_8.index t 1 * 256 + 1 * (y 1).val = (y 1).val; rw [e1]; omega

theorem idx9 : ∀ t : Fin cfg0.N, win0_9.index t (0 : Fin 2) = 0 ∧ win0_9.index t (1 : Fin 2) = 0 :=
  (by decide +kernel : ∀ t : Fin grid0.N, _)

/-- Window 9 stages the whole of its array at every point. -/
theorem iblk9_eq (c : Dev nD) (t : Fin cfg0.N) :
    (iblk m c 9 t : Vec F S256x256 .bf16) = (V m c main_v5 : S256x256.Idx → F .bf16) := by
  obtain ⟨e0, e1⟩ := idx9 t
  funext y
  unfold iblk
  rw [View.read_apply]
  show V m c main_v5 _ = V m c main_v5 _
  congr 1
  funext a
  apply Fin.ext
  match a with
  | ⟨0, _⟩ => show win0_9.index t 0 * 256 + 1 * (y 0).val = (y 0).val; rw [e0]; omega
  | ⟨1, _⟩ => show win0_9.index t 1 * 256 + 1 * (y 1).val = (y 1).val; rw [e1]; omega

theorem idx10 : ∀ t : Fin cfg0.N, win0_10.index t (0 : Fin 2) = 0 ∧ win0_10.index t (1 : Fin 2) = 0 :=
  (by decide +kernel : ∀ t : Fin grid0.N, _)

/-- Window 10 stages the whole of its array at every point. -/
theorem iblk10_eq (c : Dev nD) (t : Fin cfg0.N) :
    (iblk m c 10 t : Vec F S1x256 .f32) = (V m c main_v11 : S1x256.Idx → F .f32) := by
  obtain ⟨e0, e1⟩ := idx10 t
  funext y
  unfold iblk
  rw [View.read_apply]
  show V m c main_v11 _ = V m c main_v11 _
  congr 1
  funext a
  apply Fin.ext
  match a with
  | ⟨0, _⟩ => show win0_10.index t 0 * 1 + 1 * (y 0).val = (y 0).val; rw [e0]; omega
  | ⟨1, _⟩ => show win0_10.index t 1 * 256 + 1 * (y 1).val = (y 1).val; rw [e1]; omega

theorem idx11 : ∀ t : Fin cfg0.N, win0_11.index t (0 : Fin 2) = 0 ∧ win0_11.index t (1 : Fin 2) = 0 :=
  (by decide +kernel : ∀ t : Fin grid0.N, _)

/-- Window 11 stages the whole of its array at every point. -/
theorem iblk11_eq (c : Dev nD) (t : Fin cfg0.N) :
    (iblk m c 11 t : Vec F S256x256 .bf16) = (V m c main_v6 : S256x256.Idx → F .bf16) := by
  obtain ⟨e0, e1⟩ := idx11 t
  funext y
  unfold iblk
  rw [View.read_apply]
  show V m c main_v6 _ = V m c main_v6 _
  congr 1
  funext a
  apply Fin.ext
  match a with
  | ⟨0, _⟩ => show win0_11.index t 0 * 256 + 1 * (y 0).val = (y 0).val; rw [e0]; omega
  | ⟨1, _⟩ => show win0_11.index t 1 * 256 + 1 * (y 1).val = (y 1).val; rw [e1]; omega

theorem idx12 : ∀ t : Fin cfg0.N, win0_12.index t (0 : Fin 2) = 0 ∧ win0_12.index t (1 : Fin 2) = 0 :=
  (by decide +kernel : ∀ t : Fin grid0.N, _)

/-- Window 12 stages the whole of its array at every point. -/
theorem iblk12_eq (c : Dev nD) (t : Fin cfg0.N) :
    (iblk m c 12 t : Vec F S1x256 .f32) = (V m c main_v12 : S1x256.Idx → F .f32) := by
  obtain ⟨e0, e1⟩ := idx12 t
  funext y
  unfold iblk
  rw [View.read_apply]
  show V m c main_v12 _ = V m c main_v12 _
  congr 1
  funext a
  apply Fin.ext
  match a with
  | ⟨0, _⟩ => show win0_12.index t 0 * 1 + 1 * (y 0).val = (y 0).val; rw [e0]; omega
  | ⟨1, _⟩ => show win0_12.index t 1 * 256 + 1 * (y 1).val = (y 1).val; rw [e1]; omega

end Cert.KernelIdeal.Hand

end
-- ==== Proof.Jet.lean ====
/-
  One jet's computation, as the kernel's body does it on a [200, 8] block: the embedding h = tanh(x·W + b); the soft
  adjacency A = softmax over each row of (h·hᵀ)/16; the message A·h; the vertex update tanh(h·W_top + msg·W_bot + b);
  and the readout, the column sums of tanh(h·W1 + b1)·W2 plus 200·b2. The body's stored values are these functions
  of its loaded blocks (by unfolding the printed payloads).
-/
import proofs.«149841_g85813446574462_cont_9to1c4b_288_7_alg».proof.Proof.Gen.KernelIdeal.Skeleton

noncomputable section

namespace Cert.KernelIdeal.Jet

open Idealize.ShloMosaic Cert.KernelIdeal Cert.KernelIdeal.Gen

variable {F : FTy → Type} [FloatOps F]

/-- h = tanh(x·W + b), one row of b added to every row. -/
def emb (x : FVec F S200x8 .bf16) (W : FVec F S8x256 .bf16) (b : FVec F S1x256 .f32) : FVec F S200x256 .bf16 :=
  truncf .bf16 (tanh (addf (matmul dot_S200x8_S8x256_S200x256_1_0_0_1_n_n none x W (constant S200x256 .f32 0x00000000#32))
    (broadcastTo S200x256 b broadcasts_S1x256_S200x256))) bitsLt_bf16_f32

/-- The scaled scores (h·hᵀ)·(1/16), accumulated onto z. -/
def logits (h : FVec F S200x256 .bf16) (z : FVec F S200x200 .f32) : FVec F S200x200 .f32 :=
  mulf (matmul dot_S200x256_S200x256_S200x200_1_1_0_0_n_n none h h z) (broadcast S200x200 (Scalar.ofBits .f32 0x3D800000#32))

/-- exp(l − its row's maximum). -/
def expo (l : FVec F S200x200 .f32) : FVec F S200x200 .f32 :=
  exp (subf l (broadcastTo S200x200 (shapeCast S200x1
    (multiReduction .maximumf [1] S200 l 0xFF800000#32 reduces_S200x200_S200 (.inl rfl) rfl) shapeCasts_S200_S200x1)
    broadcasts_S200x1_S200x200))

/-- e divided by its row's sum. -/
def norm (e : FVec F S200x200 .f32) : FVec F S200x200 .f32 :=
  divf e (broadcastTo S200x200 (shapeCast S200x1
    (multiReduction .add [1] S200 e 0x00000000#32 reduces_S200x200_S200 (.inl rfl) rfl) shapeCasts_S200_S200x1)
    broadcasts_S200x1_S200x200)

/-- The soft adjacency: each row of the scaled scores through softmax. -/
def adj (h : FVec F S200x256 .bf16) (z : FVec F S200x200 .f32) : FVec F S200x200 .f32 := norm (expo (logits h z))

/-- The message A·h. -/
def msg (h : FVec F S200x256 .bf16) (z : FVec F S200x200 .f32) : FVec F S200x256 .f32 :=
  matmul dot_S200x200_S200x256_S200x256_1_0_0_1_n_n none (truncf .bf16 (adj h z) bitsLt_bf16_f32) h (constant S200x256 .f32 0x00000000#32)

/-- The vertex update from h and a message: tanh(h·W[:256] + msg·W[256:] + b). -/
def update (h : FVec F S200x256 .bf16) (ms : FVec F S200x256 .f32) (W : FVec F S512x256 .bf16) (b : FVec F S1x256 .f32) :
    FVec F S200x256 .bf16 :=
  truncf .bf16 (tanh (addf
    (addf
      (matmul dot_S200x256_S256x256_S200x256_1_0_0_1_n_n none h
        (extractStridedSlice S256x256 ![0, 0] W slices_S512x256_o0_0_S256x256) (constant S200x256 .f32 0x00000000#32))
      (matmul dot_S200x256_S256x256_S200x256_1_0_0_1_n_n none (truncf .bf16 ms bitsLt_bf16_f32)
        (extractStridedSlice S256x256 ![256, 0] W slices_S512x256_o256_0_S256x256) (constant S200x256 .f32 0x00000000#32)))
    (broadcastTo S200x256 b broadcasts_S1x256_S200x256))) bitsLt_bf16_f32

/-- One message-passing iteration. -/
def step (h : FVec F S200x256 .bf16) (z : FVec F S200x200 .f32) (W : FVec F S512x256 .bf16) (b : FVec F S1x256 .f32) :
    FVec F S200x256 .bf16 := update h (msg h z) W b

/-- The readout, as one row [1, 256]: the column sums of tanh(h·W1 + b1)·W2, plus 200·b2. -/
def readout (h : FVec F S200x256 .bf16) (W1 : FVec F S256x256 .bf16) (b1 : FVec F S1x256 .f32)
    (W2 : FVec F S256x256 .bf16) (b2 : FVec F S1x256 .f32) : FVec F S1x256 .f32 :=
  addf
    (shapeCast S1x256
      (multiReduction .add [0] S256
        (matmul dot_S200x256_S256x256_S200x256_1_0_0_1_n_n none
          (truncf .bf16 (tanh (addf
            (matmul dot_S200x256_S256x256_S200x256_1_0_0_1_n_n none h W1 (constant S200x256 .f32 0x00000000#32))
            (broadcastTo S200x256 b1 broadcasts_S1x256_S200x256))) bitsLt_bf16_f32)
          W2 (constant S200x256 .f32 0x00000000#32))
        0x00000000#32 reduces_S200x256_S256 (.inl rfl) rfl) shapeCasts_S256_S1x256)
    (mulf (broadcast S1x256 (Scalar.ofBits .f32 0x43480000#32)) b2)

/-! ## The printed payloads are these functions -/

theorem pay2_eq (v0 : Vec F S1x200x8 .bf16) (v2 : Vec F S8x256 .bf16) (v5 : Vec F S1x256 .f32) (v25 : Vec F S512x256 .bf16)
    (v33 : Vec F S1x256 .f32) :
    k0_pay2 v0 v2 v5 v25 v33
      = step (emb (shapeCast S200x8 v0 shapeCasts_S1x200x8_S200x8) (shapeCast S8x256 v2 shapeCasts_S8x256_S8x256)
              (shapeCast S1x256 v5 shapeCasts_S1x256_S1x256))
          (constant S200x200 .f32 0x00000000#32) (shapeCast S512x256 v25 shapeCasts_S512x256_S512x256)
          (shapeCast S1x256 v33 shapeCasts_S1x256_S1x256) := rfl

theorem pay3_eq (v38 : FVec F S200x256 .bf16) (z : FVec F S200x200 .f32) (v53 : Vec F S512x256 .bf16) (v61 : Vec F S1x256 .f32) :
    k0_pay3 v38 z v53 v61
      = step v38 z (shapeCast S512x256 v53 shapeCasts_S512x256_S512x256) (shapeCast S1x256 v61 shapeCasts_S1x256_S1x256) := rfl

theorem pay4_eq (v38 : FVec F S200x256 .bf16) (z : FVec F S200x200 .f32) (v53 : Vec F S512x256 .bf16) (v61 : Vec F S1x256 .f32) :
    k0_pay4 v38 z v53 v61 = adj (k0_pay3 v38 z v53 v61) (constant S200x200 .f32 0x00000000#32) := rfl

theorem pay5_eq (v38 : FVec F S200x256 .bf16) (z : FVec F S200x200 .f32) (v53 : Vec F S512x256 .bf16) (v61 : Vec F S1x256 .f32) :
    k0_pay5 v38 z v53 v61 = msg (k0_pay3 v38 z v53 v61) (constant S200x200 .f32 0x00000000#32) := rfl

theorem pay6_eq (v66 : FVec F S200x256 .bf16) (v80 : FVec F S200x256 .f32) (v81 : Vec F S512x256 .bf16) (v89 : Vec F S1x256 .f32)
    (v95 : Vec F S256x256 .bf16) (v98 : Vec F S1x256 .f32) (v104 : Vec F S256x256 .bf16) (v109 : Vec F S1x256 .f32) :
    k0_pay6 v66 v80 v81 v89 v95 v98 v104 v109
      = shapeCast S1x1x256
          (readout (update v66 v80 (shapeCast S512x256 v81 shapeCasts_S512x256_S512x256) (shapeCast S1x256 v89 shapeCasts_S1x256_S1x256))
            (shapeCast S256x256 v95 shapeCasts_S256x256_S256x256) (shapeCast S1x256 v98 shapeCasts_S1x256_S1x256)
            (shapeCast S256x256 v104 shapeCasts_S256x256_S256x256) (shapeCast S1x256 v109 shapeCasts_S1x256_S1x256))
          shapeCasts_S1x256_S1x1x256 := rfl

theorem pay1_eq (v78 : FVec F S200x200 .f32) : k0_pay1 v78 = shapeCast S1x200x200 v78 shapeCasts_S200x200_S1x200x200 := rfl

end Cert.KernelIdeal.Jet

end
-- ==== Proof.KernelValue.lean ====
/-
  What the kernel's two result arrays hold after its run, read off the frame run. Grid point t stages jet t's block
  of the first operand and the whole of every weight and bias; the body leaves, in the two output windows' buffers,
  the readout row and the soft adjacency of that jet (the per-jet layers of the blocks); point t's blocks are row t
  of the [128, 1, 256] array and matrix t of the [128, 200, 200] array, and the 128 blocks tile both arrays; the
  host line after the region reshapes [128, 1, 256] to [128, 256]. The arrays the region finds are the arguments
  through the host lines before it: a change of float format, or a vector [256] reshaped to one row [1, 256].
-/
import proofs.«149841_g85813446574462_cont_9to1c4b_288_7_alg».proof.Proof.KernelBlocks
import proofs.«149841_g85813446574462_cont_9to1c4b_288_7_alg».proof.Proof.Jet
import Idealize.ShloMosaic.Lib.Pipeline.Value
import Idealize.ShloMosaic.Lib.ValueLayout
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

theorem lt128 (t : Fin cfg0.N) : t.val < 128 := by
  have h := t.isLt
  have e : cfg0.N = 128 := N_0
  omega

/-- Grid point t as a jet's number. -/
abbrev jet (t : Fin cfg0.N) : Fin 128 := ⟨t.val, lt128 t⟩

/-! ## The printed index maps of the three windows that move with the grid, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)

/-- Window 0's block at point t is jet t's [1, 200, 8] slab of the first operand. -/
theorem iblk0_apply (c : Dev nD) (t : Fin cfg0.N) (y : S1x200x8.Idx) :
    (iblk m c 0 t : Vec F S1x200x8 .bf16) y = (V m c main_v0 : S128x200x8.Idx → F .bf16) (ix3 (jet t) (y 1) (y 2)) := by
  obtain ⟨e0, e1, e2⟩ := idx0 t
  unfold iblk
  rw [View.read_apply]
  show V m c main_v0 _ = V m c main_v0 _
  congr 1
  funext a
  apply Fin.ext
  have h0 : (y 0).val < 1 := (y 0).isLt
  match a with
  | ⟨0, _⟩ => show win0_0.index t 0 * 1 + 1 * (y 0).val = t.val; rw [e0]; omega
  | ⟨1, _⟩ => show win0_0.index t 1 * 200 + 1 * (y 1).val = (y 1).val; rw [e1]; omega
  | ⟨2, _⟩ => show win0_0.index t 2 * 8 + 1 * (y 2).val = (y 2).val; rw [e2]; omega

/-! ## The two result arrays as functions of what the region finds -/

/-- The zero the scores accumulate onto. -/
abbrev Z : FVec F S200x200 .f32 := constant S200x200 .f32 0x00000000#32

/-- Jet g's [200, 8] matrix of the first operand. -/
def jetIn (c : Dev nD) (g : Fin 128) : FVec F S200x8 .bf16 :=
  fun y => (V m c main_v0 : S128x200x8.Idx → F .bf16) (ix3 g (y 0) (y 1))

/-- Jet g's hidden states after the embedding, and after one, two and three iterations. -/
def H0 (c : Dev nD) (g : Fin 128) : FVec F S200x256 .bf16 :=
  Jet.emb (jetIn m c g) (V m c main_v1 : S8x256.Idx → F .bf16) (V m c main_v7 : S1x256.Idx → F .f32)
def H1 (c : Dev nD) (g : Fin 128) : FVec F S200x256 .bf16 :=
  Jet.step (H0 m c g) Z (V m c main_v2 : S512x256.Idx → F .bf16) (V m c main_v8 : S1x256.Idx → F .f32)
def H2 (c : Dev nD) (g : Fin 128) : FVec F S200x256 .bf16 :=
  Jet.step (H1 m c g) Z (V m c main_v3 : S512x256.Idx → F .bf16) (V m c main_v9 : S1x256.Idx → F .f32)
def H3 (c : Dev nD) (g : Fin 128) : FVec F S200x256 .bf16 :=
  Jet.step (H2 m c g) Z (V m c main_v4 : S512x256.Idx → F .bf16) (V m c main_v10 : S1x256.Idx → F .f32)

/-- Jet g's soft adjacency: of its states after two iterations. -/
def adjOf (c : Dev nD) (g : Fin 128) : FVec F S200x200 .f32 := Jet.adj (H2 m c g) Z

/-- Jet g's readout row [1, 256]: of its states after three iterations. -/
def readOf (c : Dev nD) (g : Fin 128) : FVec F S1x256 .f32 :=
  Jet.readout (H3 m c g) (V m c main_v5 : S256x256.Idx → F .bf16) (V m c main_v11 : S1x256.Idx → F .f32)
    (V m c main_v6 : S256x256.Idx → F .bf16) (V m c main_v12 : S1x256.Idx → F .f32)

/-- The adjacency array: matrix g is jet g's soft adjacency. -/
def Aout (c : Dev nD) : S128x200x200.Idx → F .f32 := fun i => adjOf m c (i 0) (ix2 (i 1) (i 2))

/-- The readout array [128, 1, 256]: row g is jet g's readout. -/
def Rout (c : Dev nD) : S128x1x256.Idx → F .f32 := fun i => readOf m c (i 0) (ix2 (i 1) (i 2))

/-- Window 0's block at point t, as a [200, 8] matrix, is jet t's. -/
theorem iblk0_eq (c : Dev nD) (t : Fin cfg0.N) :
    shapeCast S200x8 (iblk m c 0 t : Vec F S1x200x8 .bf16) shapeCasts_S1x200x8_S200x8 = jetIn m c (jet t) := by
  funext y
  obtain ⟨p, q, rfl⟩ : ∃ (p : Fin 200) (q : Fin 8), y = ix2 p q := ⟨y 0, y 1, eq_ix2 y⟩
  refine (shapeCast_1ab_ab_apply _ _ p q).trans ?_
  exact iblk0_apply m c t _

/-- What the body leaves for the adjacency window at point t: jet t's soft adjacency as a [1, 200, 200] block. -/
theorem out14_eq (c : Dev nD) (t : Fin cfg0.N) :
    out0_14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
      = shapeCast S1x200x200 (adjOf m c (jet t)) shapeCasts_S200x200_S1x200x200 := by
  unfold out0_14
  rw [View.canon_unit_zero hz3]
  simp only [View.ld_unit_zero (S := S1x200x8) hz3, View.ld_unit_zero (S := S8x256) hz2, View.ld_unit_zero (S := S1x256) hz2,
    View.ld_unit_zero (S := S512x256) hz2]
  rw [Jet.pay1_eq, Jet.pay4_eq, Jet.pay3_eq, Jet.pay2_eq, iblk0_eq, iblk1_eq, iblk2_eq, iblk3_eq, iblk4_eq, iblk5_eq, iblk6_eq]
  simp only [shapeCast_self]
  rfl

/-- What the body leaves for the readout window at point t: jet t's readout row as a [1, 1, 256] block. -/
theorem out13_eq (c : Dev nD) (t : Fin cfg0.N) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
      = shapeCast S1x1x256 (readOf m c (jet t)) shapeCasts_S1x256_S1x1x256 := by
  unfold out0_13
  rw [View.canon_unit_zero hz3]
  simp only [View.ld_unit_zero (S := S1x200x8) hz3, View.ld_unit_zero (S := S8x256) hz2, View.ld_unit_zero (S := S1x256) hz2,
    View.ld_unit_zero (S := S512x256) hz2, View.ld_unit_zero (S := S256x256) hz2]
  rw [Jet.pay6_eq, Jet.pay5_eq, Jet.pay3_eq, Jet.pay2_eq, iblk0_eq, iblk1_eq, iblk2_eq, iblk3_eq, iblk4_eq, iblk5_eq, iblk6_eq,
    iblk7_eq, iblk8_eq, iblk9_eq, iblk10_eq, iblk11_eq, iblk12_eq]
  simp only [shapeCast_self]
  rfl

/-! ## Point t's output blocks inside the two arrays -/

/-- The adjacency window's block at point t sits at matrix t of the array. -/
theorem blk14_emb (t : Fin cfg0.N) (u : Fin 1) (p q : Fin 200) :
    ((cfg0.win 14).blk t).view.emb (ix3 u p q : S1x200x200.Idx) = (ix3 (jet t) p q : S128x200x200.Idx) := by
  obtain ⟨e0, e1, e2⟩ := idx14 t
  funext a
  apply Fin.ext
  have hu : u.val < 1 := u.isLt
  match a with
  | ⟨0, _⟩ => show win0_14.index t 0 * 1 + 1 * u.val = t.val; rw [e0]; omega
  | ⟨1, _⟩ => show win0_14.index t 1 * 200 + 1 * p.val = p.val; rw [e1]; omega
  | ⟨2, _⟩ => show win0_14.index t 2 * 200 + 1 * q.val = q.val; rw [e2]; omega

/-- The readout window's block at point t sits at row t of the array. -/
theorem blk13_emb (t : Fin cfg0.N) (u v : Fin 1) (q : Fin 256) :
    ((cfg0.win 13).blk t).view.emb (ix3 u v q : S1x1x256.Idx) = (ix3 (jet t) v q : S128x1x256.Idx) := by
  obtain ⟨e0, e1, e2⟩ := idx13 t
  funext a
  apply Fin.ext
  have hu : u.val < 1 := u.isLt
  have hv : v.val < 1 := v.isLt
  match a with
  | ⟨0, _⟩ => show win0_13.index t 0 * 1 + 1 * u.val = t.val; rw [e0]; omega
  | ⟨1, _⟩ => show win0_13.index t 1 * 1 + 1 * v.val = v.val; rw [e1]; omega
  | ⟨2, _⟩ => show win0_13.index t 2 * 256 + 1 * q.val = q.val; rw [e2]; omega

/-- What point t writes back to the adjacency array is block t of `Aout`. -/
theorem flushed14_eq (c : Dev nD) (t : Fin cfg0.N) :
    (dats m 0 c).flushed 14 t = ((cfg0.win 14).blk t).view.read (Elt F) (Aout m c) := by
  show (cfg0.win 14).cut (grid0.coords t) ((dats m 0 c).after 14 t) = _
  rw [after0_14, out14_eq]
  funext j
  obtain ⟨u, p, q, rfl⟩ : ∃ (u : Fin 1) (p q : Fin 200), j = ix3 u p q := ⟨j 0, j 1, j 2, eq_ix3 j⟩
  show shapeCast S1x200x200 (adjOf m c (jet t)) shapeCasts_S200x200_S1x200x200 (ix3 u p q)
    = Aout m c (((cfg0.win 14).blk t).view.emb (ix3 u p q))
  rw [blk14_emb t u p q]
  exact shapeCast_ab_1ab_apply _ _ u p q

/-- What point t writes back to the readout array is block t of `Rout`. -/
theorem flushed13_eq (c : Dev nD) (t : Fin cfg0.N) :
    (dats m 0 c).flushed 13 t = ((cfg0.win 13).blk t).view.read (Elt F) (Rout m c) := by
  show (cfg0.win 13).cut (grid0.coords t) ((dats m 0 c).after 13 t) = _
  rw [after0_13, out13_eq]
  funext j
  obtain ⟨u, v, q, rfl⟩ : ∃ (u v : Fin 1) (q : Fin 256), j = ix3 u v q := ⟨j 0, j 1, j 2, eq_ix3 j⟩
  show shapeCast S1x1x256 (readOf m c (jet t)) shapeCasts_S1x256_S1x1x256 (ix3 u v q)
    = Rout m c (((cfg0.win 13).blk t).view.emb (ix3 u v q))
  rw [blk13_emb t u v q]
  exact shapeCast_ab_1ab_apply _ _ u v q

/-- An index of the adjacency array is in point t's block iff each coordinate is in the block's range on its axis. -/
theorem mem_blk14 (t : Fin cfg0.N) (i : S128x200x200.Idx) :
    i ∈ ((cfg0.win 14).blk t).view.set ↔ ∀ a : Fin 3, win0_14.index t a * S1x200x200.size a ≤ (i a).val
      ∧ (i a).val < win0_14.index t a * S1x200x200.size a + S1x200x200.size a := by
  show i ∈ ((View.whole main_v13_1).slice (win0_14.rect t)).set ↔ _
  rw [View.set_slice_whole, Rect.mem_set_unit]
  exact Iff.rfl

theorem mem_blk13 (t : Fin cfg0.N) (i : S128x1x256.Idx) :
    i ∈ ((cfg0.win 13).blk t).view.set ↔ ∀ a : Fin 3, win0_13.index t a * S1x1x256.size a ≤ (i a).val
      ∧ (i a).val < win0_13.index t a * S1x1x256.size a + S1x1x256.size a := by
  show i ∈ ((View.whole main_v13_0).slice (win0_13.rect t)).set ↔ _
  rw [View.set_slice_whole, Rect.mem_set_unit]
  exact Iff.rfl

/-- Every index of the adjacency array is in the block of the point its leading coordinate names. -/
theorem cover14 (i : S128x200x200.Idx) :
    ∃ t : Fin cfg0.N, (cfg0.win 14).flush t = true ∧ i ∈ ((cfg0.win 14).blk t).view.set := by
  have h0 : (i 0).val < 128 := (i 0).isLt
  have h1 : (i 1).val < 200 := (i 1).isLt
  have h2 : (i 2).val < 200 := (i 2).isLt
  have e : cfg0.N = 128 := N_0
  have e' : grid0.N = 128 := N_0
  refine ⟨⟨(i 0).val, by omega⟩, flush0_14 _, ?_⟩
  obtain ⟨e0', e1, e2⟩ := idx14 ⟨(i 0).val, by omega⟩
  have e0 : win0_14.index ⟨(i 0).val, by omega⟩ (0 : Fin 3) = (i 0).val := e0'
  rw [mem_blk14]
  intro a
  match a with
  | ⟨0, _⟩ =>
    show win0_14.index _ (0 : Fin 3) * 1 ≤ (i 0).val ∧ (i 0).val < win0_14.index _ (0 : Fin 3) * 1 + 1
    rw [e0]; exact ⟨by omega, by omega⟩
  | ⟨1, _⟩ =>
    show win0_14.index _ (1 : Fin 3) * 200 ≤ (i 1).val ∧ (i 1).val < win0_14.index _ (1 : Fin 3) * 200 + 200
    rw [e1]; exact ⟨by omega, by omega⟩
  | ⟨2, _⟩ =>
    show win0_14.index _ (2 : Fin 3) * 200 ≤ (i 2).val ∧ (i 2).val < win0_14.index _ (2 : Fin 3) * 200 + 200
    rw [e2]; exact ⟨by omega, by omega⟩

/-- Every index of the readout array is in the block of the point its leading coordinate names. -/
theorem cover13 (i : S128x1x256.Idx) :
    ∃ t : Fin cfg0.N, (cfg0.win 13).flush t = true ∧ i ∈ ((cfg0.win 13).blk t).view.set := by
  have h0 : (i 0).val < 128 := (i 0).isLt
  have h1 : (i 1).val < 1 := (i 1).isLt
  have h2 : (i 2).val < 256 := (i 2).isLt
  have e : cfg0.N = 128 := N_0
  have e' : grid0.N = 128 := N_0
  refine ⟨⟨(i 0).val, by omega⟩, flush0_13 _, ?_⟩
  obtain ⟨e0', e1, e2⟩ := idx13 ⟨(i 0).val, by omega⟩
  have e0 : win0_13.index ⟨(i 0).val, by omega⟩ (0 : Fin 3) = (i 0).val := e0'
  rw [mem_blk13]
  intro a
  match a with
  | ⟨0, _⟩ =>
    show win0_13.index _ (0 : Fin 3) * 1 ≤ (i 0).val ∧ (i 0).val < win0_13.index _ (0 : Fin 3) * 1 + 1
    rw [e0]; exact ⟨by omega, by omega⟩
  | ⟨1, _⟩ =>
    show win0_13.index _ (1 : Fin 3) * 1 ≤ (i 1).val ∧ (i 1).val < win0_13.index _ (1 : Fin 3) * 1 + 1
    rw [e1]; exact ⟨by omega, by omega⟩
  | ⟨2, _⟩ =>
    show win0_13.index _ (2 : Fin 3) * 256 ≤ (i 2).val ∧ (i 2).val < win0_13.index _ (2 : Fin 3) * 256 + 256
    rw [e2]; exact ⟨by omega, by omega⟩

/-- The adjacency array after the run. -/
theorem final14 (c : Dev nD) : (dats m 0 c).arrAt 14 cfg0.N = Aout m c :=
  (dats m 0 c).arrAt_eq_of_cover 14 (Aout m c) (fun t _ => flushed14_eq m c t) cover14

/-- The readout array after the region. -/
theorem final13 (c : Dev nD) : (dats m 0 c).arrAt 13 cfg0.N = Rout m c :=
  (dats m 0 c).arrAt_eq_of_cover 13 (Rout m c) (fun t _ => flushed13_eq m c t) cover13

/-- The host line after the region: the [128, 256] result is the readout array reshaped. -/
theorem tail_v14 (c : Dev nD) :
    Pipeline.afterTail₀ cfgs (dats m) 0 (V0 m) [hostOps1] c main_v14
      = shapeCast S128x256 (Rout m c) shapeCasts_S128x1x256_S128x256 := by
  have hA : Pipeline.withArrays (cfgs 0).spec c (V0 m c) (fun w => (dats m 0 c).arrAt w (cfgs 0).N) (Proc.devRef .tc main_v13_0)
      = Rout m c :=
    (Pipeline.withArrays_arr spec0 launch0.win.arr_inj c _ _ 13).trans (final13 m c)
  unfold Pipeline.afterTail₀
  show StableHlo.after hostOps1 _ (Proc.devRef .tc main_v14) = _
  after_results
  rw [hA]
  rfl

/-! ## The run, read -/

/-- The kernel's run: the [128, 256] result at the readout array reshaped, the adjacency result at `Aout`, the
    thirteen argument arrays unchanged. -/
theorem run : θ_run defs (onTc (τ := τ) (main (F := F))) ⟨m, fun _ => 0, ρ⟩ fun r => ∀ c : Dev nD,
      r.2.mem ((c.tc : Thread nD τ).loc main_v14) = shapeCast S128x256 (Rout m c) shapeCasts_S128x1x256_S128x256
      ∧ r.2.mem ((c.tc : Thread nD τ).loc main_v13_1) = Aout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
    ⟨((h c).2 main_v14 (Pipeline.mem_restRefs_of main_v14 (by decide) (by decide))).trans (tail_v14 m c),
      ((h c).1 14).trans (final14 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Hand

end
-- ==== Proof.RefKeep.lean ====
/- A table: which buffers each chunk of the reference's operation list leaves as it found them (the thirteen
   argument arrays through every chunk; the adjacency result through the readout), and, from it, that the whole
   list leaves the argument arrays as launched. -/
import proofs.«149841_g85813446574462_cont_9to1c4b_288_7_alg».proof.Proof.RefOps

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem keep_opsE_main_arg0 (V : Valuation τ sig (Elt F)) :
    after (opsE (F := F)) V (Proc.devRef .tc main_arg0) = V (Proc.devRef .tc main_arg0) := by after_results_simp
set_option maxRecDepth 8192 in
theorem keep_opsE_main_arg1 (V : Valuation τ sig (Elt F)) :
    after (opsE (F := F)) V (Proc.devRef .tc main_arg1) = V (Proc.devRef .tc main_arg1) := by after_results_simp
set_option maxRecDepth 8192 in
theorem keep_opsE_main_arg2 (V : Valuation τ sig (Elt F)) :
    after (opsE (F := F)) V (Proc.devRef .tc main_arg2) = V (Proc.devRef .tc main_arg2) := by after_results_simp
set_option maxRecDepth 8192 in
theorem keep_opsE_main_arg3 (V : Valuation τ sig (Elt F)) :
    after (opsE (F := F)) V (Proc.devRef .tc main_arg3) = V (Proc.devRef .tc main_arg3) := by after_results_simp
set_option maxRecDepth 8192 in
theorem keep_opsE_main_arg4 (V : Valuation τ sig (Elt F)) :
    after (opsE (F := F)) V (Proc.devRef .tc main_arg4) = V (Proc.devRef .tc main_arg4) := by after_results_simp
set_option maxRecDepth 8192 in
theorem keep_opsE_main_arg5 (V : Valuation τ sig (Elt F)) :
    after (opsE (F := F)) V (Proc.devRef .tc main_arg5) = V (Proc.devRef .tc main_arg5) := by after_results_simp
set_option maxRecDepth 8192 in
theorem keep_opsE_main_arg6 (V : Valuation τ sig (Elt F)) :
    after (opsE (F := F)) V (Proc.devRef .tc main_arg6) = V (Proc.devRef .tc main_arg6) := by after_results_simp
set_option maxRecDepth 8192 in
theorem keep_opsE_main_arg7 (V : Valuation τ sig (Elt F)) :
    after (opsE (F := F)) V (Proc.devRef .tc main_arg7) = V (Proc.devRef .tc main_arg7) := by after_results_simp
set_option maxRecDepth 8192 in
theorem keep_opsE_main_arg8 (V : Valuation τ sig (Elt F)) :
    after (opsE (F := F)) V (Proc.devRef .tc main_arg8) = V (Proc.devRef .tc main_arg8) := by after_results_simp
set_option maxRecDepth 8192 in
theorem keep_opsE_main_arg9 (V : Valuation τ sig (Elt F)) :
    after (opsE (F := F)) V (Proc.devRef .tc main_arg9) = V (Proc.devRef .tc main_arg9) := by after_results_simp
set_option maxRecDepth 8192 in
theorem keep_opsE_main_arg10 (V : Valuation τ sig (Elt F)) :
    after (opsE (F := F)) V (Proc.devRef .tc main_arg10) = V (Proc.devRef .tc main_arg10) := by after_results_simp
set_option maxRecDepth 8192 in
theorem keep_opsE_main_arg11 (V : Valuation τ sig (Elt F)) :
    after (opsE (F := F)) V (Proc.devRef .tc main_arg11) = V (Proc.devRef .tc main_arg11) := by after_results_simp
set_option maxRecDepth 8192 in
theorem keep_opsE_main_arg12 (V : Valuation τ sig (Elt F)) :
    after (opsE (F := F)) V (Proc.devRef .tc main_arg12) = V (Proc.devRef .tc main_arg12) := by after_results_simp
set_option maxRecDepth 8192 in
theorem keep_opsI1a_main_arg0 (V : Valuation τ sig (Elt F)) :
    after (opsI1a (F := F)) V (Proc.devRef .tc main_arg0) = V (Proc.devRef .tc main_arg0) := by after_results_simp
set_option maxRecDepth 8192 in
theorem keep_opsI1a_main_arg1 (V : Valuation τ sig (Elt F)) :
    after (opsI1a (F := F)) V (Proc.devRef .tc main_arg1) = V (Proc.devRef .tc main_arg1) := by after_results_simp
set_option maxRecDepth 8192 in
theorem keep_opsI1a_main_arg2 (V : Valuation τ sig (Elt F)) :
    after (opsI1a (F := F)) V (Proc.devRef .tc main_arg2) = V (Proc.devRef .tc main_arg2) := by after_results_simp
set_option maxRecDepth 8192 in
theorem keep_opsI1a_main_arg3 (V : Valuation τ sig (Elt F)) :
    after (opsI1a (F := F)) V (Proc.devRef .tc main_arg3) = V (Proc.devRef .tc main_arg3) := by after_results_simp
set_option maxRecDepth 8192 in
theorem keep_opsI1a_main_arg4 (V : Valuation τ sig (Elt F)) :
    after (opsI1a (F := F)) V (Proc.devRef .tc main_arg4) = V (Proc.devRef .tc main_arg4) := by after_results_simp
set_option maxRecDepth 8192 in
theorem keep_opsI1a_main_arg5 (V : Valuation τ sig (Elt F)) :
    after (opsI1a (F := F)) V (Proc.devRef .tc main_arg5) = V (Proc.devRef .tc main_arg5) := by after_results_simp
set_option maxRecDepth 8192 in
theorem keep_opsI1a_main_arg6 (V : Valuation τ sig (Elt F)) :
    after (opsI1a (F := F)) V (Proc.devRef .tc main_arg6) = V (Proc.devRef .tc main_arg6) := by after_results_simp
set_option maxRecDepth 8192 in
theorem keep_opsI1a_main_arg7 (V : Valuation τ sig (Elt F)) :
    after (opsI1a (F := F)) V (Proc.devRef .tc main_arg7) = V (Proc.devRef .tc main_arg7) := by after_results_simp
set_option maxRecDepth 8192 in
theorem keep_opsI1a_main_arg8 (V : Valuation τ sig (Elt F)) :
    after (opsI1a (F := F)) V (Proc.devRef .tc main_arg8) = V (Proc.devRef .tc main_arg8) := by after_results_simp
set_option maxRecDepth 8192 in
theorem keep_opsI1a_main_arg9 (V : Valuation τ sig (Elt F)) :
    after (opsI1a (F := F)) V (Proc.devRef .tc main_arg9) = V (Proc.devRef .tc main_arg9) := by after_results_simp
set_option maxRecDepth 8192 in
theorem keep_opsI1a_main_arg10 (V : Valuation τ sig (Elt F)) :
    after (opsI1a (F := F)) V (Proc.devRef .tc main_arg10) = V (Proc.devRef .tc main_arg10) := by after_results_simp
set_option maxRecDepth 8192 in
theorem keep_opsI1a_main_arg11 (V : Valuation τ sig (Elt F)) :
    after (opsI1a (F := F)) V (Proc.devRef .tc main_arg11) = V (Proc.devRef .tc main_arg11) := by after_results_simp
set_option maxRecDepth 8192 in
theorem keep_opsI1a_main_arg12 (V : Valuation τ sig (Elt F)) :
    after (opsI1a (F := F)) V (Proc.devRef .tc main_arg12) = V (Proc.devRef .tc main_arg12) := by after_results_simp
set_option maxRecDepth 8192 in
theorem keep_opsI1a_main_v4 (V : Valuation τ sig (Elt F)) :
    after (opsI1a (F := F)) V (Proc.devRef .tc main_v4) = V (Proc.devRef .tc main_v4) := by after_results_simp
set_option maxRecDepth 8192 in
theorem keep_opsI1b_main_arg0 (V : Valuation τ sig (Elt F)) :
    after (opsI1b (F := F)) V (Proc.devRef .tc main_arg0) = V (Proc.devRef .tc main_arg0) := by after_results_simp
set_option maxRecDepth 8192 in
theorem keep_opsI1b_main_arg1 (V : Valuation τ sig (Elt F)) :
    after (opsI1b (F := F)) V (Proc.devRef .tc main_arg1) = V (Proc.devRef .tc main_arg1) := by after_results_simp
set_option maxRecDepth 8192 in
theorem keep_opsI1b_main_arg2 (V : Valuation τ sig (Elt F)) :
    after (opsI1b (F := F)) V (Proc.devRef .tc main_arg2) = V (Proc.devRef .tc main_arg2) := by after_results_simp
set_option maxRecDepth 8192 in
theorem keep_opsI1b_main_arg3 (V : Valuation τ sig (Elt F)) :
    after (opsI1b (F := F)) V (Proc.devRef .tc main_arg3) = V (Proc.devRef .tc main_arg3) := by after_results_simp
set_option maxRecDepth 8192 in
theorem keep_opsI1b_main_arg4 (V : Valuation τ sig (Elt F)) :
    after (opsI1b (F := F)) V (Proc.devRef .tc main_arg4) = V (Proc.devRef .tc main_arg4) := by after_results_simp
set_option maxRecDepth 8192 in
theorem keep_opsI1b_main_arg5 (V : Valuation τ sig (Elt F)) :
    after (opsI1b (F := F)) V (Proc.devRef .tc main_arg5) = V (Proc.devRef .tc main_arg5) := by after_results_simp
set_option maxRecDepth 8192 in
theorem keep_opsI1b_main_arg6 (V : Valuation τ sig (Elt F)) :
    after (opsI1b (F := F)) V (Proc.devRef .tc main_arg6) = V (Proc.devRef .tc main_arg6) := by after_results_simp
set_option maxRecDepth 8192 in
theorem keep_opsI1b_main_arg7 (V : Valuation τ sig (Elt F)) :
    after (opsI1b (F := F)) V (Proc.devRef .tc main_arg7) = V (Proc.devRef .tc main_arg7) := by after_results_simp
set_option maxRecDepth 8192 in
theorem keep_opsI1b_main_arg8 (V : Valuation τ sig (Elt F)) :
    after (opsI1b (F := F)) V (Proc.devRef .tc main_arg8) = V (Proc.devRef .tc main_arg8) := by after_results_simp
set_option maxRecDepth 8192 in
theorem keep_opsI1b_main_arg9 (V : Valuation τ sig (Elt F)) :
    after (opsI1b (F := F)) V (Proc.devRef .tc main_arg9) = V (Proc.devRef .tc main_arg9) := by after_results_simp
set_option maxRecDepth 8192 in
theorem keep_opsI1b_main_arg10 (V : Valuation τ sig (Elt F)) :
    after (opsI1b (F := F)) V (Proc.devRef .tc main_arg10) = V (Proc.devRef .tc main_arg10) := by after_results_simp
set_option maxRecDepth 8192 in
theorem keep_opsI1b_main_arg11 (V : Valuation τ sig (Elt F)) :
    after (opsI1b (F := F)) V (Proc.devRef .tc main_arg11) = V (Proc.devRef .tc main_arg11) := by after_results_simp
set_option maxRecDepth 8192 in
theorem keep_opsI1b_main_arg12 (V : Valuation τ sig (Elt F)) :
    after (opsI1b (F := F)) V (Proc.devRef .tc main_arg12) = V (Proc.devRef .tc main_arg12) := by after_results_simp
set_option maxRecDepth 8192 in
theorem keep_opsI2a_main_arg0 (V : Valuation τ sig (Elt F)) :
    after (opsI2a (F := F)) V (Proc.devRef .tc main_arg0) = V (Proc.devRef .tc main_arg0) := by after_results_simp
set_option maxRecDepth 8192 in
theorem keep_opsI2a_main_arg1 (V : Valuation τ sig (Elt F)) :
    after (opsI2a (F := F)) V (Proc.devRef .tc main_arg1) = V (Proc.devRef .tc main_arg1) := by after_results_simp
set_option maxRecDepth 8192 in
theorem keep_opsI2a_main_arg2 (V : Valuation τ sig (Elt F)) :
    after (opsI2a (F := F)) V (Proc.devRef .tc main_arg2) = V (Proc.devRef .tc main_arg2) := by after_results_simp
set_option maxRecDepth 8192 in
theorem keep_opsI2a_main_arg3 (V : Valuation τ sig (Elt F)) :
    after (opsI2a (F := F)) V (Proc.devRef .tc main_arg3) = V (Proc.devRef .tc main_arg3) := by after_results_simp
set_option maxRecDepth 8192 in
theorem keep_opsI2a_main_arg4 (V : Valuation τ sig (Elt F)) :
    after (opsI2a (F := F)) V (Proc.devRef .tc main_arg4) = V (Proc.devRef .tc main_arg4) := by after_results_simp
set_option maxRecDepth 8192 in
theorem keep_opsI2a_main_arg5 (V : Valuation τ sig (Elt F)) :
    after (opsI2a (F := F)) V (Proc.devRef .tc main_arg5) = V (Proc.devRef .tc main_arg5) := by after_results_simp
set_option maxRecDepth 8192 in
theorem keep_opsI2a_main_arg6 (V : Valuation τ sig (Elt F)) :
    after (opsI2a (F := F)) V (Proc.devRef .tc main_arg6) = V (Proc.devRef .tc main_arg6) := by after_results_simp
set_option maxRecDepth 8192 in
theorem keep_opsI2a_main_arg7 (V : Valuation τ sig (Elt F)) :
    after (opsI2a (F := F)) V (Proc.devRef .tc main_arg7) = V (Proc.devRef .tc main_arg7) := by after_results_simp
set_option maxRecDepth 8192 in
theorem keep_opsI2a_main_arg8 (V : Valuation τ sig (Elt F)) :
    after (opsI2a (F := F)) V (Proc.devRef .tc main_arg8) = V (Proc.devRef .tc main_arg8) := by after_results_simp
set_option maxRecDepth 8192 in
theorem keep_opsI2a_main_arg9 (V : Valuation τ sig (Elt F)) :
    after (opsI2a (F := F)) V (Proc.devRef .tc main_arg9) = V (Proc.devRef .tc main_arg9) := by after_results_simp
set_option maxRecDepth 8192 in
theorem keep_opsI2a_main_arg10 (V : Valuation τ sig (Elt F)) :
    after (opsI2a (F := F)) V (Proc.devRef .tc main_arg10) = V (Proc.devRef .tc main_arg10) := by after_results_simp
set_option maxRecDepth 8192 in
theorem keep_opsI2a_main_arg11 (V : Valuation τ sig (Elt F)) :
    after (opsI2a (F := F)) V (Proc.devRef .tc main_arg11) = V (Proc.devRef .tc main_arg11) := by after_results_simp
set_option maxRecDepth 8192 in
theorem keep_opsI2a_main_arg12 (V : Valuation τ sig (Elt F)) :
    after (opsI2a (F := F)) V (Proc.devRef .tc main_arg12) = V (Proc.devRef .tc main_arg12) := by after_results_simp
set_option maxRecDepth 8192 in
theorem keep_opsI2a_main_v26 (V : Valuation τ sig (Elt F)) :
    after (opsI2a (F := F)) V (Proc.devRef .tc main_v26) = V (Proc.devRef .tc main_v26) := by after_results_simp
set_option maxRecDepth 8192 in
theorem keep_opsI2b_main_arg0 (V : Valuation τ sig (Elt F)) :
    after (opsI2b (F := F)) V (Proc.devRef .tc main_arg0) = V (Proc.devRef .tc main_arg0) := by after_results_simp
set_option maxRecDepth 8192 in
theorem keep_opsI2b_main_arg1 (V : Valuation τ sig (Elt F)) :
    after (opsI2b (F := F)) V (Proc.devRef .tc main_arg1) = V (Proc.devRef .tc main_arg1) := by after_results_simp
set_option maxRecDepth 8192 in
theorem keep_opsI2b_main_arg2 (V : Valuation τ sig (Elt F)) :
    after (opsI2b (F := F)) V (Proc.devRef .tc main_arg2) = V (Proc.devRef .tc main_arg2) := by after_results_simp
set_option maxRecDepth 8192 in
theorem keep_opsI2b_main_arg3 (V : Valuation τ sig (Elt F)) :
    after (opsI2b (F := F)) V (Proc.devRef .tc main_arg3) = V (Proc.devRef .tc main_arg3) := by after_results_simp
set_option maxRecDepth 8192 in
theorem keep_opsI2b_main_arg4 (V : Valuation τ sig (Elt F)) :
    after (opsI2b (F := F)) V (Proc.devRef .tc main_arg4) = V (Proc.devRef .tc main_arg4) := by after_results_simp
set_option maxRecDepth 8192 in
theorem keep_opsI2b_main_arg5 (V : Valuation τ sig (Elt F)) :
    after (opsI2b (F := F)) V (Proc.devRef .tc main_arg5) = V (Proc.devRef .tc main_arg5) := by after_results_simp
set_option maxRecDepth 8192 in
theorem keep_opsI2b_main_arg6 (V : Valuation τ sig (Elt F)) :
    after (opsI2b (F := F)) V (Proc.devRef .tc main_arg6) = V (Proc.devRef .tc main_arg6) := by after_results_simp
set_option maxRecDepth 8192 in
theorem keep_opsI2b_main_arg7 (V : Valuation τ sig (Elt F)) :
    after (opsI2b (F := F)) V (Proc.devRef .tc main_arg7) = V (Proc.devRef .tc main_arg7) := by after_results_simp
set_option maxRecDepth 8192 in
theorem keep_opsI2b_main_arg8 (V : Valuation τ sig (Elt F)) :
    after (opsI2b (F := F)) V (Proc.devRef .tc main_arg8) = V (Proc.devRef .tc main_arg8) := by after_results_simp
set_option maxRecDepth 8192 in
theorem keep_opsI2b_main_arg9 (V : Valuation τ sig (Elt F)) :
    after (opsI2b (F := F)) V (Proc.devRef .tc main_arg9) = V (Proc.devRef .tc main_arg9) := by after_results_simp
set_option maxRecDepth 8192 in
theorem keep_opsI2b_main_arg10 (V : Valuation τ sig (Elt F)) :
    after (opsI2b (F := F)) V (Proc.devRef .tc main_arg10) = V (Proc.devRef .tc main_arg10) := by after_results_simp
set_option maxRecDepth 8192 in
theorem keep_opsI2b_main_arg11 (V : Valuation τ sig (Elt F)) :
    after (opsI2b (F := F)) V (Proc.devRef .tc main_arg11) = V (Proc.devRef .tc main_arg11) := by after_results_simp
set_option maxRecDepth 8192 in
theorem keep_opsI2b_main_arg12 (V : Valuation τ sig (Elt F)) :
    after (opsI2b (F := F)) V (Proc.devRef .tc main_arg12) = V (Proc.devRef .tc main_arg12) := by after_results_simp
set_option maxRecDepth 8192 in
theorem keep_opsI3a_main_arg0 (V : Valuation τ sig (Elt F)) :
    after (opsI3a (F := F)) V (Proc.devRef .tc main_arg0) = V (Proc.devRef .tc main_arg0) := by after_results_simp
set_option maxRecDepth 8192 in
theorem keep_opsI3a_main_arg1 (V : Valuation τ sig (Elt F)) :
    after (opsI3a (F := F)) V (Proc.devRef .tc main_arg1) = V (Proc.devRef .tc main_arg1) := by after_results_simp
set_option maxRecDepth 8192 in
theorem keep_opsI3a_main_arg2 (V : Valuation τ sig (Elt F)) :
    after (opsI3a (F := F)) V (Proc.devRef .tc main_arg2) = V (Proc.devRef .tc main_arg2) := by after_results_simp
set_option maxRecDepth 8192 in
theorem keep_opsI3a_main_arg3 (V : Valuation τ sig (Elt F)) :
    after (opsI3a (F := F)) V (Proc.devRef .tc main_arg3) = V (Proc.devRef .tc main_arg3) := by after_results_simp
set_option maxRecDepth 8192 in
theorem keep_opsI3a_main_arg4 (V : Valuation τ sig (Elt F)) :
    after (opsI3a (F := F)) V (Proc.devRef .tc main_arg4) = V (Proc.devRef .tc main_arg4) := by after_results_simp
set_option maxRecDepth 8192 in
theorem keep_opsI3a_main_arg5 (V : Valuation τ sig (Elt F)) :
    after (opsI3a (F := F)) V (Proc.devRef .tc main_arg5) = V (Proc.devRef .tc main_arg5) := by after_results_simp
set_option maxRecDepth 8192 in
theorem keep_opsI3a_main_arg6 (V : Valuation τ sig (Elt F)) :
    after (opsI3a (F := F)) V (Proc.devRef .tc main_arg6) = V (Proc.devRef .tc main_arg6) := by after_results_simp
set_option maxRecDepth 8192 in
theorem keep_opsI3a_main_arg7 (V : Valuation τ sig (Elt F)) :
    after (opsI3a (F := F)) V (Proc.devRef .tc main_arg7) = V (Proc.devRef .tc main_arg7) := by after_results_simp
set_option maxRecDepth 8192 in
theorem keep_opsI3a_main_arg8 (V : Valuation τ sig (Elt F)) :
    after (opsI3a (F := F)) V (Proc.devRef .tc main_arg8) = V (Proc.devRef .tc main_arg8) := by after_results_simp
set_option maxRecDepth 8192 in
theorem keep_opsI3a_main_arg9 (V : Valuation τ sig (Elt F)) :
    after (opsI3a (F := F)) V (Proc.devRef .tc main_arg9) = V (Proc.devRef .tc main_arg9) := by after_results_simp
set_option maxRecDepth 8192 in
theorem keep_opsI3a_main_arg10 (V : Valuation τ sig (Elt F)) :
    after (opsI3a (F := F)) V (Proc.devRef .tc main_arg10) = V (Proc.devRef .tc main_arg10) := by after_results_simp
set_option maxRecDepth 8192 in
theorem keep_opsI3a_main_arg11 (V : Valuation τ sig (Elt F)) :
    after (opsI3a (F := F)) V (Proc.devRef .tc main_arg11) = V (Proc.devRef .tc main_arg11) := by after_results_simp
set_option maxRecDepth 8192 in
theorem keep_opsI3a_main_arg12 (V : Valuation τ sig (Elt F)) :
    after (opsI3a (F := F)) V (Proc.devRef .tc main_arg12) = V (Proc.devRef .tc main_arg12) := by after_results_simp
set_option maxRecDepth 8192 in
theorem keep_opsI3a_main_v47 (V : Valuation τ sig (Elt F)) :
    after (opsI3a (F := F)) V (Proc.devRef .tc main_v47) = V (Proc.devRef .tc main_v47) := by after_results_simp
set_option maxRecDepth 8192 in
theorem keep_opsI3b_main_arg0 (V : Valuation τ sig (Elt F)) :
    after (opsI3b (F := F)) V (Proc.devRef .tc main_arg0) = V (Proc.devRef .tc main_arg0) := by after_results_simp
set_option maxRecDepth 8192 in
theorem keep_opsI3b_main_arg1 (V : Valuation τ sig (Elt F)) :
    after (opsI3b (F := F)) V (Proc.devRef .tc main_arg1) = V (Proc.devRef .tc main_arg1) := by after_results_simp
set_option maxRecDepth 8192 in
theorem keep_opsI3b_main_arg2 (V : Valuation τ sig (Elt F)) :
    after (opsI3b (F := F)) V (Proc.devRef .tc main_arg2) = V (Proc.devRef .tc main_arg2) := by after_results_simp
set_option maxRecDepth 8192 in
theorem keep_opsI3b_main_arg3 (V : Valuation τ sig (Elt F)) :
    after (opsI3b (F := F)) V (Proc.devRef .tc main_arg3) = V (Proc.devRef .tc main_arg3) := by after_results_simp
set_option maxRecDepth 8192 in
theorem keep_opsI3b_main_arg4 (V : Valuation τ sig (Elt F)) :
    after (opsI3b (F := F)) V (Proc.devRef .tc main_arg4) = V (Proc.devRef .tc main_arg4) := by after_results_simp
set_option maxRecDepth 8192 in
theorem keep_opsI3b_main_arg5 (V : Valuation τ sig (Elt F)) :
    after (opsI3b (F := F)) V (Proc.devRef .tc main_arg5) = V (Proc.devRef .tc main_arg5) := by after_results_simp
set_option maxRecDepth 8192 in
theorem keep_opsI3b_main_arg6 (V : Valuation τ sig (Elt F)) :
    after (opsI3b (F := F)) V (Proc.devRef .tc main_arg6) = V (Proc.devRef .tc main_arg6) := by after_results_simp
set_option maxRecDepth 8192 in
theorem keep_opsI3b_main_arg7 (V : Valuation τ sig (Elt F)) :
    after (opsI3b (F := F)) V (Proc.devRef .tc main_arg7) = V (Proc.devRef .tc main_arg7) := by after_results_simp
set_option maxRecDepth 8192 in
theorem keep_opsI3b_main_arg8 (V : Valuation τ sig (Elt F)) :
    after (opsI3b (F := F)) V (Proc.devRef .tc main_arg8) = V (Proc.devRef .tc main_arg8) := by after_results_simp
set_option maxRecDepth 8192 in
theorem keep_opsI3b_main_arg9 (V : Valuation τ sig (Elt F)) :
    after (opsI3b (F := F)) V (Proc.devRef .tc main_arg9) = V (Proc.devRef .tc main_arg9) := by after_results_simp
set_option maxRecDepth 8192 in
theorem keep_opsI3b_main_arg10 (V : Valuation τ sig (Elt F)) :
    after (opsI3b (F := F)) V (Proc.devRef .tc main_arg10) = V (Proc.devRef .tc main_arg10) := by after_results_simp
set_option maxRecDepth 8192 in
theorem keep_opsI3b_main_arg11 (V : Valuation τ sig (Elt F)) :
    after (opsI3b (F := F)) V (Proc.devRef .tc main_arg11) = V (Proc.devRef .tc main_arg11) := by after_results_simp
set_option maxRecDepth 8192 in
theorem keep_opsI3b_main_arg12 (V : Valuation τ sig (Elt F)) :
    after (opsI3b (F := F)) V (Proc.devRef .tc main_arg12) = V (Proc.devRef .tc main_arg12) := by after_results_simp
set_option maxRecDepth 8192 in
theorem keep_opsI3b_main_v61 (V : Valuation τ sig (Elt F)) :
    after (opsI3b (F := F)) V (Proc.devRef .tc main_v61) = V (Proc.devRef .tc main_v61) := by after_results_simp
set_option maxRecDepth 8192 in
theorem keep_opsR_main_arg0 (V : Valuation τ sig (Elt F)) :
    after (opsR (F := F)) V (Proc.devRef .tc main_arg0) = V (Proc.devRef .tc main_arg0) := by after_results_simp
set_option maxRecDepth 8192 in
theorem keep_opsR_main_arg1 (V : Valuation τ sig (Elt F)) :
    after (opsR (F := F)) V (Proc.devRef .tc main_arg1) = V (Proc.devRef .tc main_arg1) := by after_results_simp
set_option maxRecDepth 8192 in
theorem keep_opsR_main_arg2 (V : Valuation τ sig (Elt F)) :
    after (opsR (F := F)) V (Proc.devRef .tc main_arg2) = V (Proc.devRef .tc main_arg2) := by after_results_simp
set_option maxRecDepth 8192 in
theorem keep_opsR_main_arg3 (V : Valuation τ sig (Elt F)) :
    after (opsR (F := F)) V (Proc.devRef .tc main_arg3) = V (Proc.devRef .tc main_arg3) := by after_results_simp
set_option maxRecDepth 8192 in
theorem keep_opsR_main_arg4 (V : Valuation τ sig (Elt F)) :
    after (opsR (F := F)) V (Proc.devRef .tc main_arg4) = V (Proc.devRef .tc main_arg4) := by after_results_simp
set_option maxRecDepth 8192 in
theorem keep_opsR_main_arg5 (V : Valuation τ sig (Elt F)) :
    after (opsR (F := F)) V (Proc.devRef .tc main_arg5) = V (Proc.devRef .tc main_arg5) := by after_results_simp
set_option maxRecDepth 8192 in
theorem keep_opsR_main_arg6 (V : Valuation τ sig (Elt F)) :
    after (opsR (F := F)) V (Proc.devRef .tc main_arg6) = V (Proc.devRef .tc main_arg6) := by after_results_simp
set_option maxRecDepth 8192 in
theorem keep_opsR_main_arg7 (V : Valuation τ sig (Elt F)) :
    after (opsR (F := F)) V (Proc.devRef .tc main_arg7) = V (Proc.devRef .tc main_arg7) := by after_results_simp
set_option maxRecDepth 8192 in
theorem keep_opsR_main_arg8 (V : Valuation τ sig (Elt F)) :
    after (opsR (F := F)) V (Proc.devRef .tc main_arg8) = V (Proc.devRef .tc main_arg8) := by after_results_simp
set_option maxRecDepth 8192 in
theorem keep_opsR_main_arg9 (V : Valuation τ sig (Elt F)) :
    after (opsR (F := F)) V (Proc.devRef .tc main_arg9) = V (Proc.devRef .tc main_arg9) := by after_results_simp
set_option maxRecDepth 8192 in
theorem keep_opsR_main_arg10 (V : Valuation τ sig (Elt F)) :
    after (opsR (F := F)) V (Proc.devRef .tc main_arg10) = V (Proc.devRef .tc main_arg10) := by after_results_simp
set_option maxRecDepth 8192 in
theorem keep_opsR_main_arg11 (V : Valuation τ sig (Elt F)) :
    after (opsR (F := F)) V (Proc.devRef .tc main_arg11) = V (Proc.devRef .tc main_arg11) := by after_results_simp
set_option maxRecDepth 8192 in
theorem keep_opsR_main_arg12 (V : Valuation τ sig (Elt F)) :
    after (opsR (F := F)) V (Proc.devRef .tc main_arg12) = V (Proc.devRef .tc main_arg12) := by after_results_simp
set_option maxRecDepth 8192 in
theorem keep_opsR_main_v61 (V : Valuation τ sig (Elt F)) :
    after (opsR (F := F)) V (Proc.devRef .tc main_v61) = V (Proc.devRef .tc main_v61) := by after_results_simp

theorem kept_main_arg0 (V : Valuation τ sig (Elt F)) : after (ops (F := F)) V (Proc.devRef .tc main_arg0) = V (Proc.devRef .tc main_arg0) := by
  rw [after_ops, keep_opsR_main_arg0, keep_opsI3b_main_arg0, keep_opsI3a_main_arg0, keep_opsI2b_main_arg0, keep_opsI2a_main_arg0, keep_opsI1b_main_arg0, keep_opsI1a_main_arg0, keep_opsE_main_arg0]
theorem kept_main_arg1 (V : Valuation τ sig (Elt F)) : after (ops (F := F)) V (Proc.devRef .tc main_arg1) = V (Proc.devRef .tc main_arg1) := by
  rw [after_ops, keep_opsR_main_arg1, keep_opsI3b_main_arg1, keep_opsI3a_main_arg1, keep_opsI2b_main_arg1, keep_opsI2a_main_arg1, keep_opsI1b_main_arg1, keep_opsI1a_main_arg1, keep_opsE_main_arg1]
theorem kept_main_arg2 (V : Valuation τ sig (Elt F)) : after (ops (F := F)) V (Proc.devRef .tc main_arg2) = V (Proc.devRef .tc main_arg2) := by
  rw [after_ops, keep_opsR_main_arg2, keep_opsI3b_main_arg2, keep_opsI3a_main_arg2, keep_opsI2b_main_arg2, keep_opsI2a_main_arg2, keep_opsI1b_main_arg2, keep_opsI1a_main_arg2, keep_opsE_main_arg2]
theorem kept_main_arg3 (V : Valuation τ sig (Elt F)) : after (ops (F := F)) V (Proc.devRef .tc main_arg3) = V (Proc.devRef .tc main_arg3) := by
  rw [after_ops, keep_opsR_main_arg3, keep_opsI3b_main_arg3, keep_opsI3a_main_arg3, keep_opsI2b_main_arg3, keep_opsI2a_main_arg3, keep_opsI1b_main_arg3, keep_opsI1a_main_arg3, keep_opsE_main_arg3]
theorem kept_main_arg4 (V : Valuation τ sig (Elt F)) : after (ops (F := F)) V (Proc.devRef .tc main_arg4) = V (Proc.devRef .tc main_arg4) := by
  rw [after_ops, keep_opsR_main_arg4, keep_opsI3b_main_arg4, keep_opsI3a_main_arg4, keep_opsI2b_main_arg4, keep_opsI2a_main_arg4, keep_opsI1b_main_arg4, keep_opsI1a_main_arg4, keep_opsE_main_arg4]
theorem kept_main_arg5 (V : Valuation τ sig (Elt F)) : after (ops (F := F)) V (Proc.devRef .tc main_arg5) = V (Proc.devRef .tc main_arg5) := by
  rw [after_ops, keep_opsR_main_arg5, keep_opsI3b_main_arg5, keep_opsI3a_main_arg5, keep_opsI2b_main_arg5, keep_opsI2a_main_arg5, keep_opsI1b_main_arg5, keep_opsI1a_main_arg5, keep_opsE_main_arg5]
theorem kept_main_arg6 (V : Valuation τ sig (Elt F)) : after (ops (F := F)) V (Proc.devRef .tc main_arg6) = V (Proc.devRef .tc main_arg6) := by
  rw [after_ops, keep_opsR_main_arg6, keep_opsI3b_main_arg6, keep_opsI3a_main_arg6, keep_opsI2b_main_arg6, keep_opsI2a_main_arg6, keep_opsI1b_main_arg6, keep_opsI1a_main_arg6, keep_opsE_main_arg6]
theorem kept_main_arg7 (V : Valuation τ sig (Elt F)) : after (ops (F := F)) V (Proc.devRef .tc main_arg7) = V (Proc.devRef .tc main_arg7) := by
  rw [after_ops, keep_opsR_main_arg7, keep_opsI3b_main_arg7, keep_opsI3a_main_arg7, keep_opsI2b_main_arg7, keep_opsI2a_main_arg7, keep_opsI1b_main_arg7, keep_opsI1a_main_arg7, keep_opsE_main_arg7]
theorem kept_main_arg8 (V : Valuation τ sig (Elt F)) : after (ops (F := F)) V (Proc.devRef .tc main_arg8) = V (Proc.devRef .tc main_arg8) := by
  rw [after_ops, keep_opsR_main_arg8, keep_opsI3b_main_arg8, keep_opsI3a_main_arg8, keep_opsI2b_main_arg8, keep_opsI2a_main_arg8, keep_opsI1b_main_arg8, keep_opsI1a_main_arg8, keep_opsE_main_arg8]
theorem kept_main_arg9 (V : Valuation τ sig (Elt F)) : after (ops (F := F)) V (Proc.devRef .tc main_arg9) = V (Proc.devRef .tc main_arg9) := by
  rw [after_ops, keep_opsR_main_arg9, keep_opsI3b_main_arg9, keep_opsI3a_main_arg9, keep_opsI2b_main_arg9, keep_opsI2a_main_arg9, keep_opsI1b_main_arg9, keep_opsI1a_main_arg9, keep_opsE_main_arg9]
theorem kept_main_arg10 (V : Valuation τ sig (Elt F)) : after (ops (F := F)) V (Proc.devRef .tc main_arg10) = V (Proc.devRef .tc main_arg10) := by
  rw [after_ops, keep_opsR_main_arg10, keep_opsI3b_main_arg10, keep_opsI3a_main_arg10, keep_opsI2b_main_arg10, keep_opsI2a_main_arg10, keep_opsI1b_main_arg10, keep_opsI1a_main_arg10, keep_opsE_main_arg10]
theorem kept_main_arg11 (V : Valuation τ sig (Elt F)) : after (ops (F := F)) V (Proc.devRef .tc main_arg11) = V (Proc.devRef .tc main_arg11) := by
  rw [after_ops, keep_opsR_main_arg11, keep_opsI3b_main_arg11, keep_opsI3a_main_arg11, keep_opsI2b_main_arg11, keep_opsI2a_main_arg11, keep_opsI1b_main_arg11, keep_opsI1a_main_arg11, keep_opsE_main_arg11]
theorem kept_main_arg12 (V : Valuation τ sig (Elt F)) : after (ops (F := F)) V (Proc.devRef .tc main_arg12) = V (Proc.devRef .tc main_arg12) := by
  rw [after_ops, keep_opsR_main_arg12, keep_opsI3b_main_arg12, keep_opsI3a_main_arg12, keep_opsI2b_main_arg12, keep_opsI2a_main_arg12, keep_opsI1b_main_arg12, keep_opsI1a_main_arg12, keep_opsE_main_arg12]

end Cert.ReferenceIdeal.RunP

end
-- ==== Proof.RefStack.lean ====
/-
  The reference's computation on the whole stack of 128 jets, layer by layer, in its own operations: the embedding, the
  soft adjacency (softmax of the scaled scores along the last axis), one message-passing iteration (the update of
  the concatenation [h ‖ A·h]), and the readout (the sum over the 200 nodes). And the reference's run read through
  these layers: the operation list's fold, chunk by chunk, composes them.
-/
import proofs.«149841_g85813446574462_cont_9to1c4b_288_7_alg».proof.Proof.RefKeep

noncomputable section

namespace Cert.ReferenceIdeal.Stack

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- A bias vector [256] at every node of every jet. -/
def bias (b : FVec F S256 .f32) : FVec F S128x200x256 .f32 :=
  broadcastInDim S128x200x256 ![0, 1, 2] bcast_S1x1x256_S128x200x256_0_1_2 (broadcastInDim S1x1x256 ![2] bcast_S256_S1x1x256_2 b)

/-- h = tanh(x·W + b) on every jet. -/
def emb (x : FVec F S128x200x8 .f32) (W : FVec F S8x256 .f32) (b : FVec F S256 .f32) : FVec F S128x200x256 .f32 :=
  Host.tanh (addf (Host.dotGeneral dot_S128x200x8_S8x256_S128x200x256_2_0_01_1_n_n none x W) (bias b))

/-- The scaled scores (h·hᵀ)·(1/16), jet by jet. -/
def logits (h : FVec F S128x200x256 .f32) : FVec F S128x200x200 .f32 :=
  mulf (Host.dotGeneral dot_S128x200x256_S128x200x256_S128x200x200_2_2_1_1_0_0 none h h)
    (broadcastInDim S128x200x200 ![] bcast_S_S128x200x200 (constant S_ .f32 0x3D800000#32))

/-- exp(l − its row's maximum). -/
def expo (l : FVec F S128x200x200 .f32) : FVec F S128x200x200 .f32 :=
  Host.exp (subf l (broadcastInDim S128x200x200 ![0, 1, 2] bcast_S128x200x1_S128x200x200_0_1_2
    (broadcastInDim S128x200x1 ![0, 1] bcast_S128x200_S128x200x1_0_1
      (maximumf (broadcastInDim S128x200 ![] bcast_S_S128x200 (constant S_ .f32 0xFF800000#32))
        (Host.reduce FloatOps.maximumf l (constant S_ .f32 0xFF800000#32) reducesTo_S128x200x200_S128x200_d2 h_S_)))))

/-- e divided by its row's sum. -/
def norm (e : FVec F S128x200x200 .f32) : FVec F S128x200x200 .f32 :=
  Host.divf e (broadcastInDim S128x200x200 ![0, 1, 2] bcast_S128x200x1_S128x200x200_0_1_2
    (broadcastInDim S128x200x1 ![0, 1] bcast_S128x200_S128x200x1_0_1
      (Host.reduceAdd e (constant S_ .f32 0x00000000#32) reducesTo_S128x200x200_S128x200_d2 h_S_)))

/-- The soft adjacency of every jet. -/
def adj (h : FVec F S128x200x256 .f32) : FVec F S128x200x200 .f32 := norm (expo (logits h))

/-- The message A·h of every jet. -/
def message (h : FVec F S128x200x256 .f32) : FVec F S128x200x256 .f32 :=
  Host.dotGeneral dot_S128x200x200_S128x200x256_S128x200x256_2_1_1_2_0_0 none (adj h) h

/-- The vertex update from h and a message: tanh([h ‖ msg]·W + b). -/
def update (h ms : FVec F S128x200x256 .f32) (W : FVec F S512x256 .f32) (b : FVec F S256 .f32) : FVec F S128x200x256 .f32 :=
  Host.tanh (addf
    (Host.dotGeneral dot_S128x200x512_S512x256_S128x200x256_2_0_01_1_n_n none
      (concatenate S128x200x512 2 [⟨S128x200x256, h⟩, ⟨S128x200x256, ms⟩]
        concatenates_S128x200x256_S128x200x256_S128x200x512_d2) W)
    (bias b))

/-- One message-passing iteration. -/
def step (h : FVec F S128x200x256 .f32) (W : FVec F S512x256 .f32) (b : FVec F S256 .f32) : FVec F S128x200x256 .f32 :=
  update h (message h) W b

/-- The readout: the sum over the nodes of tanh(h·W1 + b1)·W2 + b2. -/
def readout (h : FVec F S128x200x256 .f32) (W1 : FVec F S256x256 .f32) (b1 : FVec F S256 .f32)
    (W2 : FVec F S256x256 .f32) (b2 : FVec F S256 .f32) : FVec F S128x256 .f32 :=
  Host.reduceAdd
    (addf (Host.dotGeneral dot_S128x200x256_S256x256_S128x200x256_2_0_01_1_n_n none
        (Host.tanh (addf (Host.dotGeneral dot_S128x200x256_S256x256_S128x200x256_2_0_01_1_n_n none h W1) (bias b1))) W2)
      (bias b2))
    (constant S_ .f32 0x00000000#32) reducesTo_S128x200x256_S128x256_d1 h_S_

/-! ## The run, chunk by chunk -/

set_option maxRecDepth 8192 in
theorem E_v4 (V : Valuation τ sig (Elt F)) :
    after (opsE (F := F)) V (Proc.devRef .tc main_v4)
      = emb (V (Proc.devRef .tc main_arg0)) (V (Proc.devRef .tc main_arg1)) (V (Proc.devRef .tc main_arg2)) := by
  after_results_simp <;> rfl

set_option maxRecDepth 8192 in
theorem I1a_v20 (V : Valuation τ sig (Elt F)) :
    after (opsI1a (F := F)) V (Proc.devRef .tc main_v20)
      = message (V (Proc.devRef .tc main_v4)) := by
  after_results_simp <;> rfl

set_option maxRecDepth 8192 in
theorem I1b_v26 (V : Valuation τ sig (Elt F)) :
    after (opsI1b (F := F)) V (Proc.devRef .tc main_v26)
      = update (V (Proc.devRef .tc main_v4)) (V (Proc.devRef .tc main_v20)) (V (Proc.devRef .tc main_arg3)) (V (Proc.devRef .tc main_arg4)) := by
  after_results_simp <;> rfl

set_option maxRecDepth 8192 in
theorem I2a_v41 (V : Valuation τ sig (Elt F)) :
    after (opsI2a (F := F)) V (Proc.devRef .tc main_v41)
      = message (V (Proc.devRef .tc main_v26)) := by
  after_results_simp <;> rfl

set_option maxRecDepth 8192 in
theorem I2b_v47 (V : Valuation τ sig (Elt F)) :
    after (opsI2b (F := F)) V (Proc.devRef .tc main_v47)
      = update (V (Proc.devRef .tc main_v26)) (V (Proc.devRef .tc main_v41)) (V (Proc.devRef .tc main_arg5)) (V (Proc.devRef .tc main_arg6)) := by
  after_results_simp <;> rfl

set_option maxRecDepth 8192 in
theorem I3a_v62 (V : Valuation τ sig (Elt F)) :
    after (opsI3a (F := F)) V (Proc.devRef .tc main_v62)
      = message (V (Proc.devRef .tc main_v47)) := by
  after_results_simp <;> rfl

set_option maxRecDepth 8192 in
theorem I3a_v61 (V : Valuation τ sig (Elt F)) :
    after (opsI3a (F := F)) V (Proc.devRef .tc main_v61)
      = adj (V (Proc.devRef .tc main_v47)) := by
  after_results_simp <;> rfl

set_option maxRecDepth 8192 in
theorem I3b_v68 (V : Valuation τ sig (Elt F)) :
    after (opsI3b (F := F)) V (Proc.devRef .tc main_v68)
      = update (V (Proc.devRef .tc main_v47)) (V (Proc.devRef .tc main_v62)) (V (Proc.devRef .tc main_arg7)) (V (Proc.devRef .tc main_arg8)) := by
  after_results_simp <;> rfl

set_option maxRecDepth 8192 in
theorem R_v78 (V : Valuation τ sig (Elt F)) :
    after (opsR (F := F)) V (Proc.devRef .tc main_v78)
      = readout (V (Proc.devRef .tc main_v68)) (V (Proc.devRef .tc main_arg9)) (V (Proc.devRef .tc main_arg10)) (V (Proc.devRef .tc main_arg11)) (V (Proc.devRef .tc main_arg12)) := by
  after_results_simp <;> rfl

end Cert.ReferenceIdeal.Stack

end
-- ==== Proof.LibStackDot.lean ====
/-
  Matrix products over a stack of matrices, read one member at a time, at the ideal values.

  A reference multiplies whole stacks: a stack [G, m, k] by one matrix [k, n] (every member by the same matrix),
  a stack by itself transposed ([G, m, k] by [G, n, k], member by member), or two stacks member by member.
  A kernel launched once per member multiplies plain matrices. Read at an index each of these is the sum over the
  contracted coordinate of the products of two entries, so member g of the stack's product is the plain product of
  the members.
-/
import Idealize.ShloMosaic.Lib.StackMember
import Idealize.ShloMosaic.PureOps.Ideal.Laws
import Idealize.ShloMosaic.Lib.ValueIdx

noncomputable section

namespace StackLaws

open Idealize.ShloMosaic Idealize.ShloMosaic.ValueIdx Idealize.ShloMosaic.StackMember

variable {G m n k : Nat} {φ₁ φ₂ : FTy}

/-- A stack [G, m, k] times ONE matrix [k, n] (the stack's last axis contracted with the matrix's first, no batch
    axis), read at (g, a, b): the sum over c of A[g, a, c] · B[c, b]. -/
theorem dotGeneral_rows_apply
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- A stack [G, m, k] times a stack [G, n, k], member by member, both contracted on their LAST axis (each member
    times the other's transpose), read at (g, a, b): the sum over c of A[g, a, c] · B[g, b, c]. -/
theorem dotGeneral_gram_apply
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- A kernel's matrix product [m, k] by [k, n] into a zero accumulator, read at (a, b): the sum over c of
    A[a, c] · B[c, b]. -/
theorem matmul_plain_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A kernel's matrix product [m, k] by the TRANSPOSE of [n, k] (both contracted on their last axis) into a zero
    accumulator, read at (a, b): the sum over c of A[a, c] · B[b, c]. -/
theorem matmul_gram_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end StackLaws

end
-- ==== Proof.LibStackRows.lean ====
/-
  Broadcasts and row reductions over a stack of matrices [G, m, n], read one member at a time.

  A reference written over the whole stack adds a bias vector to every row of every member, scales by a splat scalar,
  takes each row's maximum and each row's sum (keeping the reduced axis as a unit axis and broadcasting it back), and
  multiplies a concatenation of two stacks along the last axis by one matrix. A kernel launched once per member does
  the same on one matrix with vector operations. Each lemma says that member g of the stack's result is the
  kernel-side operation applied to member g.
-/
import proofs.«149841_g85813446574462_cont_9to1c4b_288_7_alg».proof.Proof.LibStackDot
import Idealize.ShloMosaic.Lib.ValueLayout
import Idealize.ShloMosaic.Lib.IdealHost
import Mathlib.Data.Finset.Fold

noncomputable section

namespace StackLaws

open Idealize.ShloMosaic Idealize.ShloMosaic.ValueIdx Idealize.ShloMosaic.StackMember

variable {α : Type} {G m n k : Nat}

/-! ## Pointwise host operations at the ideal values are the kernel's -/

section Pointwise
variable {r : Nat} {d : Fin r → Nat} {φ : FTy}

theorem memberAt_hostTanh (a : FVec Ideal ⟨r + 1, Matrix.vecCons G d⟩ φ) (g : Fin G) :
    memberAt (Host.tanh a) g = tanh (memberAt a g) := rfl
theorem memberAt_hostExp (a : FVec Ideal ⟨r + 1, Matrix.vecCons G d⟩ φ) (g : Fin G) :
    memberAt (Host.exp a) g = exp (memberAt a g) := rfl
theorem memberAt_hostDivf (a b : FVec Ideal ⟨r + 1, Matrix.vecCons G d⟩ φ) (g : Fin G) :
    memberAt (Host.divf a b) g = divf (memberAt a g) (memberAt b g) := rfl
theorem memberAt_subf (a b : FVec Ideal ⟨r + 1, Matrix.vecCons G d⟩ φ) (g : Fin G) :
    memberAt (subf a b) g = subf (memberAt a g) (memberAt b g) := rfl

end Pointwise

/-! ## A bias vector added to every row of every member -/

/-- A vector [n] broadcast to [1, 1, n] and then to the stack [G, m, n] is, in each member, the vector as one row
    [1, n] broadcast down the m rows. -/
theorem member_bias (b : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![G, m, n]⟩ ![0, 1, 2])
    (hc : (⟨1, ![n]⟩ : Shape).ShapeCasts ⟨2, ![1, n]⟩) (hb : (⟨2, ![1, n]⟩ : Shape).Broadcasts ⟨2, ![m, n]⟩) (g : Fin G) :
    memberAt (d := ![m, n]) (broadcastInDim ⟨3, ![G, m, n]⟩ ![0, 1, 2] h2 (broadcastInDim ⟨3, ![1, 1, n]⟩ ![2] h1 b)) g
      = broadcastTo ⟨2, ![m, n]⟩ (shapeCast ⟨2, ![1, n]⟩ b hc) hb := by
  funext i
  obtain ⟨a, c, rfl⟩ : ∃ (a : Fin m) (c : Fin n), i = ix2 a c := ⟨i 0, i 1, eq_ix2 i⟩
  have hcn : c.val < n := c.isLt
  rw [memberAt_apply, cons_ix2, broadcastTo_1b_ab_apply, shapeCast_a_1a_apply]
  refine (broadcastInDim_apply ![0, 1, 2] h2 _ (ix3 g a c) (ix3 (0 : Fin 1) (0 : Fin 1) c) ?_).trans
    (broadcastInDim_apply ![2] h1 b _ (ix1 c) ?_)
  · intro ax
    match ax with
    | ⟨0, _⟩ => rfl
    | ⟨1, _⟩ => rfl
    | ⟨2, _⟩ =>
      show c.val = if n = 1 then 0 else c.val
      split
      · omega
      · rfl
  · intro ax
    match ax with
    | ⟨0, _⟩ =>
      show c.val = if n = 1 then 0 else c.val
      split
      · omega
      · rfl

/-! ## A scalar at every element -/

/-- A rank-0 constant broadcast to the stack is, in each member, the splat of the same pattern. -/
theorem member_scalar {φ : FTy} (w : BitVec φ.bits) (h : (⟨0, ![]⟩ : Shape).BroadcastsInDim ⟨3, ![G, m, n]⟩ ![]) (g : Fin G) :
    memberAt (d := ![m, n]) (broadcastInDim ⟨3, ![G, m, n]⟩ ![] h (constant (F := Ideal) ⟨0, ![]⟩ φ w)) g
      = broadcast ⟨2, ![m, n]⟩ (Scalar.ofBits (F := Ideal) φ w) := by
  funext i
  rw [memberAt_apply, broadcastInDim_scalar_apply]
  rfl

/-! ## The keepdims column forms -/

/-- A vector [m] cast to a column [m, 1] and broadcast along the rows to [m, n] reads, at (a, c), the vector at a. -/
theorem column_broadcast_apply (v : (⟨1, ![m]⟩ : Shape).Idx → α)
    (hsc : (⟨1, ![m]⟩ : Shape).ShapeCasts ⟨2, ![m, 1]⟩) (hbt : (⟨2, ![m, 1]⟩ : Shape).Broadcasts ⟨2, ![m, n]⟩)
    (a : Fin m) (c : Fin n) :
    broadcastTo ⟨2, ![m, n]⟩ (shapeCast ⟨2, ![m, 1]⟩ v hsc) hbt (ix2 a c) = v (ix1 a) := by
  have ham : a.val < m := a.isLt
  refine (broadcastTo_apply _ hbt (ix2 a c) (ix2 a (0 : Fin 1)) ?_).trans
    (shapeCast_apply v hsc (ix2 a (0 : Fin 1)) (ix1 a) ?_)
  · intro ax
    match ax with
    | ⟨0, _⟩ =>
      show a.val = if m = 1 then 0 else a.val
      split
      · omega
      · rfl
    | ⟨1, _⟩ => rfl
  · rw [Shape.rowMajor_val_two, Shape.rowMajor_val_one]
    show a.val = a.val * 1 + 0
    omega

/-- A stack of vectors [G, m] given a unit last axis [G, m, 1] and broadcast along it to [G, m, n] reads, at (g, a, c),
    the stack of vectors at (g, a). -/
theorem keepdims_broadcast_apply (v : (⟨2, ![G, m]⟩ : Shape).Idx → α)
    (h2 : (⟨2, ![G, m]⟩ : Shape).BroadcastsInDim ⟨3, ![G, m, 1]⟩ ![0, 1])
    (h3 : (⟨3, ![G, m, 1]⟩ : Shape).BroadcastsInDim ⟨3, ![G, m, n]⟩ ![0, 1, 2])
    (g : Fin G) (a : Fin m) (c : Fin n) :
    broadcastInDim ⟨3, ![G, m, n]⟩ ![0, 1, 2] h3 (broadcastInDim ⟨3, ![G, m, 1]⟩ ![0, 1] h2 v) (ix3 g a c) = v (ix2 g a) := by
  have hg : g.val < G := g.isLt
  have ham : a.val < m := a.isLt
  refine (broadcastInDim_apply ![0, 1, 2] h3 _ (ix3 g a c) (ix3 g a (0 : Fin 1)) ?_).trans
    (broadcastInDim_apply ![0, 1] h2 v _ (ix2 g a) ?_)
  · intro ax
    match ax with
    | ⟨0, _⟩ =>
      show g.val = if G = 1 then 0 else g.val
      split
      · omega
      · rfl
    | ⟨1, _⟩ =>
      show a.val = if m = 1 then 0 else a.val
      split
      · omega
      · rfl
    | ⟨2, _⟩ => rfl
  · intro ax
    match ax with
    | ⟨0, _⟩ =>
      show g.val = if G = 1 then 0 else g.val
      split
      · omega
      · rfl
    | ⟨1, _⟩ =>
      show a.val = if m = 1 then 0 else a.val
      split
      · omega
      · rfl

/-! ## Row maxima and row sums, kept as a unit axis and broadcast back -/

/-- Inserting k on the last axis of (g, a) in the stack is prefixing g to (a, k) inserted in the member. -/
theorem lift_last_eq (hR : (⟨3, ![G, m, n]⟩ : Shape).Reduces [2] ⟨2, ![G, m]⟩)
    (hred : (⟨2, ![m, n]⟩ : Shape).Reduces [1] ⟨1, ![m]⟩) (g : Fin G) (a : Fin m)
    (k : Fin ((⟨3, ![G, m, n]⟩ : Shape).size 2)) (k' : Fin ((⟨2, ![m, n]⟩ : Shape).size 1)) (hk : k.val = k'.val) :
    hR.lift (ix2 g a) k = (Fin.cons g (hred.lift (ix1 a) k') : (⟨3, ![G, m, n]⟩ : Shape).Idx) := by
  funext ax; apply Fin.ext
  match ax with
  | ⟨0, _⟩ => rfl
  | ⟨1, _⟩ => rfl
  | ⟨2, _⟩ => exact hk

/-- Each row's maximum over the stack (a reduce from the pattern `acc`, then the larger of `acc` and it), given a unit
    last axis and broadcast back along the rows, is, in each member, the kernel's row maximum from the same pattern,
    cast to a column and broadcast along the rows. -/
theorem member_rowmax {φ : FTy} (X : FVec Ideal ⟨3, ![G, m, n]⟩ φ) (acc : BitVec φ.bits)
    (hs : (⟨0, ![]⟩ : Shape).BroadcastsInDim ⟨2, ![G, m]⟩ ![])
    (hR' : (⟨3, ![G, m, n]⟩ : Shape).ReducesTo [2] ⟨2, ![G, m]⟩) (hu : 0 < (⟨0, ![]⟩ : Shape).numel)
    (h2 : (⟨2, ![G, m]⟩ : Shape).BroadcastsInDim ⟨3, ![G, m, 1]⟩ ![0, 1])
    (h3 : (⟨3, ![G, m, 1]⟩ : Shape).BroadcastsInDim ⟨3, ![G, m, n]⟩ ![0, 1, 2])
    (hred : (⟨2, ![m, n]⟩ : Shape).Reduces [1] ⟨1, ![m]⟩) (hφ : FKind.Formats φ) (hacc : acc = FKind.maximumf.neutral φ hφ)
    (hsc : (⟨1, ![m]⟩ : Shape).ShapeCasts ⟨2, ![m, 1]⟩) (hbt : (⟨2, ![m, 1]⟩ : Shape).Broadcasts ⟨2, ![m, n]⟩) (g : Fin G) :
    memberAt (d := ![m, n])
        (broadcastInDim ⟨3, ![G, m, n]⟩ ![0, 1, 2] h3 (broadcastInDim ⟨3, ![G, m, 1]⟩ ![0, 1] h2
          (maximumf (broadcastInDim ⟨2, ![G, m]⟩ ![] hs (constant (F := Ideal) ⟨0, ![]⟩ φ acc))
            (Host.reduce FloatOps.maximumf X (constant (F := Ideal) ⟨0, ![]⟩ φ acc) hR' hu)))) g
      = broadcastTo ⟨2, ![m, n]⟩
          (shapeCast ⟨2, ![m, 1]⟩
            (multiReduction .maximumf [1] ⟨1, ![m]⟩ (memberAt (d := ![m, n]) X g) acc hred hφ hacc) hsc) hbt := by
  have hR : (⟨3, ![G, m, n]⟩ : Shape).Reduces [2] ⟨2, ![G, m]⟩ := ⟨hR'.1, Nat.two_pos, hR'.2⟩
  funext i
  obtain ⟨a, c, rfl⟩ : ∃ (a : Fin m) (c : Fin n), i = ix2 a c := ⟨i 0, i 1, eq_ix2 i⟩
  rw [memberAt_apply, cons_ix2, keepdims_broadcast_apply, column_broadcast_apply]
  refine Eq.trans (maximumf_apply _ _ (ix2 g a)) ?_
  rw [broadcastInDim_scalar_apply, Host.reduce_eq_fold_single FloatOps.maximumf X _ hR' hR hu (ix2 g a),
    Ideal.multiReduction_maximumf_single _ acc hred hφ hacc (ix1 a)]
  have hf : (X ∘ hR.lift (ix2 g a)) = (memberAt (d := ![m, n]) X g ∘ hred.lift (ix1 a)) := by
    funext k
    exact congrArg X (lift_last_eq hR hred g a k k rfl)
  rw [hf]
  exact max_eq_right ((Finset.le_fold_max _).mpr (Or.inl le_rfl))

/-- Each row's sum over the stack (a reduce-add from zero), given a unit last axis and broadcast back along the rows,
    is, in each member, the kernel's row sum, cast to a column and broadcast along the rows. -/
theorem member_rowsum (X : FVec Ideal ⟨3, ![G, m, n]⟩ .f32)
    (hR' : (⟨3, ![G, m, n]⟩ : Shape).ReducesTo [2] ⟨2, ![G, m]⟩) (hu : 0 < (⟨0, ![]⟩ : Shape).numel)
    (h2 : (⟨2, ![G, m]⟩ : Shape).BroadcastsInDim ⟨3, ![G, m, 1]⟩ ![0, 1])
    (h3 : (⟨3, ![G, m, 1]⟩ : Shape).BroadcastsInDim ⟨3, ![G, m, n]⟩ ![0, 1, 2])
    (hred : (⟨2, ![m, n]⟩ : Shape).Reduces [1] ⟨1, ![m]⟩) (hφ : FKind.Formats .f32)
    (hacc : (0x00000000#32 : BitVec FTy.f32.bits) = FKind.add.neutral .f32 hφ)
    (hsc : (⟨1, ![m]⟩ : Shape).ShapeCasts ⟨2, ![m, 1]⟩) (hbt : (⟨2, ![m, 1]⟩ : Shape).Broadcasts ⟨2, ![m, n]⟩) (g : Fin G) :
    memberAt (d := ![m, n])
        (broadcastInDim ⟨3, ![G, m, n]⟩ ![0, 1, 2] h3 (broadcastInDim ⟨3, ![G, m, 1]⟩ ![0, 1] h2
          (Host.reduceAdd X (constant (F := Ideal) ⟨0, ![]⟩ .f32 0x00000000#32) hR' hu))) g
      = broadcastTo ⟨2, ![m, n]⟩
          (shapeCast ⟨2, ![m, 1]⟩
            (multiReduction .add [1] ⟨1, ![m]⟩ (memberAt (d := ![m, n]) X g) 0x00000000#32 hred hφ hacc) hsc) hbt := by
  have hR : (⟨3, ![G, m, n]⟩ : Shape).Reduces [2] ⟨2, ![G, m]⟩ := ⟨hR'.1, Nat.two_pos, hR'.2⟩
  funext i
  obtain ⟨a, c, rfl⟩ : ∃ (a : Fin m) (c : Fin n), i = ix2 a c := ⟨i 0, i 1, eq_ix2 i⟩
  rw [memberAt_apply, cons_ix2, keepdims_broadcast_apply, column_broadcast_apply]
  refine Eq.trans (hostReduceAdd_apply X _ hR' hu (ix2 g a)) ?_
  rw [Ideal.hostReduceAdd_single hR' hR, Ideal.multiReduction_add_single _ _ hred hφ hacc (ix1 a)]
  refine Eq.trans (congrArg (· + _) (Ideal.ofBits_zero_f32)) ?_
  rw [zero_add]
  refine Finset.sum_congr rfl fun k _ => ?_
  exact congrArg X (lift_last_eq hR hred g a k k rfl)

end StackLaws

end
-- ==== Proof.LibStackProd.lean ====
/-
  Member g of a stack's matrix product is the kernel's plain product of the members, at the ideal values: for a
  stack times one matrix, a stack times itself transposed, two stacks member by member, and a concatenation of two
  stacks along the contracted axis times one matrix (which is the sum of two products with the matrix's two halves).
  And the readout: summing (Y + bias) over the m rows of each member is the column sum of Y plus m times the bias.
-/
import proofs.«149841_g85813446574462_cont_9to1c4b_288_7_alg».proof.Proof.LibStackDot
import Idealize.ShloMosaic.Lib.ValueLayout
import Idealize.ShloMosaic.Lib.IdealHost
import Mathlib.Data.EReal.Operations
import Mathlib.Algebra.BigOperators.Fin

noncomputable section

namespace StackLaws

open Idealize.ShloMosaic Idealize.ShloMosaic.ValueIdx Idealize.ShloMosaic.StackMember

variable {G m n k : Nat} {φ₁ φ₂ ψ₁ ψ₂ : FTy}

/-- Member g of (stack [G, m, k]) · (matrix [k, n]) is (member g) · (matrix). -/
theorem member_dot_rows
    (w : DotDims.WF ⟨3, ![G, m, k]⟩ ⟨2, ![k, n]⟩ ⟨3, ![G, m, n]⟩ [2] [0] [0, 1] [1] [] [])
    (wp : DotDims.WF ⟨2, ![m, k]⟩ ⟨2, ![k, n]⟩ ⟨2, ![m, n]⟩ [1] [0] [0] [1] [] [])
    (prec prec' : Option ContractPrecision) (A : FVec Ideal ⟨3, ![G, m, k]⟩ φ₁) (B : FVec Ideal ⟨2, ![k, n]⟩ φ₂) (g : Fin G) :
    memberAt (d := ![m, n]) (Host.dotGeneral (⟨[2], [0], [0, 1], [1], [], [], w⟩ : DotDims _ _ _) prec A B) g
      = matmul (φ₁ := ψ₁) (φ₂ := ψ₂) (⟨[1], [0], [0], [1], [], [], wp⟩ : DotDims _ _ _) prec'
          (memberAt (d := ![m, k]) A g) B (constant ⟨2, ![m, n]⟩ .f32 0x00000000#32) := by
  funext i
  obtain ⟨a, b, rfl⟩ : ∃ (a : Fin m) (b : Fin n), i = ix2 a b := ⟨i 0, i 1, eq_ix2 i⟩
  rw [memberAt_apply, cons_ix2, dotGeneral_rows_apply, matmul_plain_apply]
  refine Finset.sum_congr rfl fun c _ => ?_
  rw [memberAt_apply, cons_ix2]

/-- Member g of (stack [G, m, k]) · (stack [G, n, k])ᵀ, member by member, is (member g) · (member g)ᵀ. -/
theorem member_dot_gram
    (w : DotDims.WF ⟨3, ![G, m, k]⟩ ⟨3, ![G, n, k]⟩ ⟨3, ![G, m, n]⟩ [2] [2] [1] [1] [0] [0])
    (wp : DotDims.WF ⟨2, ![m, k]⟩ ⟨2, ![n, k]⟩ ⟨2, ![m, n]⟩ [1] [1] [0] [0] [] [])
    (prec prec' : Option ContractPrecision) (A : FVec Ideal ⟨3, ![G, m, k]⟩ φ₁) (B : FVec Ideal ⟨3, ![G, n, k]⟩ φ₂) (g : Fin G) :
    memberAt (d := ![m, n]) (Host.dotGeneral (⟨[2], [2], [1], [1], [0], [0], w⟩ : DotDims _ _ _) prec A B) g
      = matmul (φ₁ := ψ₁) (φ₂ := ψ₂) (⟨[1], [1], [0], [0], [], [], wp⟩ : DotDims _ _ _) prec'
          (memberAt (d := ![m, k]) A g) (memberAt (d := ![n, k]) B g) (constant ⟨2, ![m, n]⟩ .f32 0x00000000#32) := by
  funext i
  obtain ⟨a, b, rfl⟩ : ∃ (a : Fin m) (b : Fin n), i = ix2 a b := ⟨i 0, i 1, eq_ix2 i⟩
  rw [memberAt_apply, cons_ix2, dotGeneral_gram_apply, matmul_gram_apply]
  refine Finset.sum_congr rfl fun c _ => ?_
  rw [memberAt_apply, memberAt_apply, cons_ix2, cons_ix2]

/-- Member g of (stack [G, m, k]) · (stack [G, k, n]), member by member, is (member g) · (member g). -/
theorem member_dot_stack
    (w : DotDims.WF ⟨3, ![G, m, k]⟩ ⟨3, ![G, k, n]⟩ ⟨3, ![G, m, n]⟩ [2] [1] [1] [2] [0] [0])
    (wp : DotDims.WF ⟨2, ![m, k]⟩ ⟨2, ![k, n]⟩ ⟨2, ![m, n]⟩ [1] [0] [0] [1] [] [])
    (prec prec' : Option ContractPrecision) (A : FVec Ideal ⟨3, ![G, m, k]⟩ φ₁) (B : FVec Ideal ⟨3, ![G, k, n]⟩ φ₂) (g : Fin G) :
    memberAt (d := ![m, n]) (Host.dotGeneral (⟨[2], [1], [1], [2], [0], [0], w⟩ : DotDims _ _ _) prec A B) g
      = matmul (φ₁ := ψ₁) (φ₂ := ψ₂) (⟨[1], [0], [0], [1], [], [], wp⟩ : DotDims _ _ _) prec'
          (memberAt (d := ![m, k]) A g) (memberAt (d := ![k, n]) B g) (constant ⟨2, ![m, n]⟩ .f32 0x00000000#32) := by
  funext i
  obtain ⟨a, b, rfl⟩ : ∃ (a : Fin m) (b : Fin n), i = ix2 a b := ⟨i 0, i 1, eq_ix2 i⟩
  rw [memberAt_apply, cons_ix2, dotGeneral_stack_apply, matmul_plain_apply]
  refine Finset.sum_congr rfl fun c _ => ?_
  rw [memberAt_apply, memberAt_apply, cons_ix2, cons_ix2]

/-- Member g of (A ‖ B along the last axis) · W, for stacks A, B of [m, k] matrices and W of 2k rows, is
    (member g of A) · (W's first k rows) + (member g of B) · (W's last k rows): a sum over 2k terms split in two. -/
theorem member_concat_dot {K : Nat} (hK : K = k + k)
    (w : DotDims.WF ⟨3, ![G, m, K]⟩ ⟨2, ![K, n]⟩ ⟨3, ![G, m, n]⟩ [2] [0] [0, 1] [1] [] [])
    (hcat : Shape.Concatenates [⟨3, ![G, m, k]⟩, ⟨3, ![G, m, k]⟩] ⟨3, ![G, m, K]⟩ 2)
    (wp : DotDims.WF ⟨2, ![m, k]⟩ ⟨2, ![k, n]⟩ ⟨2, ![m, n]⟩ [1] [0] [0] [1] [] [])
    (hs0 : (⟨2, ![K, n]⟩ : Shape).Slices ![0, 0] ⟨2, ![k, n]⟩) (hs1 : (⟨2, ![K, n]⟩ : Shape).Slices ![k, 0] ⟨2, ![k, n]⟩)
    (prec prec' : Option ContractPrecision) (A B : FVec Ideal ⟨3, ![G, m, k]⟩ φ₁) (W : FVec Ideal ⟨2, ![K, n]⟩ φ₂) (g : Fin G) :
    memberAt (d := ![m, n]) (Host.dotGeneral (⟨[2], [0], [0, 1], [1], [], [], w⟩ : DotDims _ _ _) prec
        (concatenate ⟨3, ![G, m, K]⟩ 2 [⟨⟨3, ![G, m, k]⟩, A⟩, ⟨⟨3, ![G, m, k]⟩, B⟩] hcat) W) g
      = addf
          (matmul (φ₁ := ψ₁) (φ₂ := ψ₂) (⟨[1], [0], [0], [1], [], [], wp⟩ : DotDims _ _ _) prec'
            (memberAt (d := ![m, k]) A g) (extractStridedSlice ⟨2, ![k, n]⟩ ![0, 0] W hs0) (constant ⟨2, ![m, n]⟩ .f32 0x00000000#32))
          (matmul (φ₁ := ψ₁) (φ₂ := ψ₂) (⟨[1], [0], [0], [1], [], [], wp⟩ : DotDims _ _ _) prec'
            (memberAt (d := ![m, k]) B g) (extractStridedSlice ⟨2, ![k, n]⟩ ![k, 0] W hs1) (constant ⟨2, ![m, n]⟩ .f32 0x00000000#32)) := by
  subst hK
  funext i
  obtain ⟨a, b, rfl⟩ : ∃ (a : Fin m) (b : Fin n), i = ix2 a b := ⟨i 0, i 1, eq_ix2 i⟩
  rw [memberAt_apply, cons_ix2, dotGeneral_rows_apply]
  refine Eq.trans ?_ (addf_apply _ _ (ix2 a b)).symm
  rw [matmul_plain_apply, matmul_plain_apply, Fin.sum_univ_add]
  refine congrArg₂ (· + ·) (Finset.sum_congr rfl fun c _ => ?_) (Finset.sum_congr rfl fun c _ => ?_)
  · rw [memberAt_apply, cons_ix2,
      slice2_axis0_apply 0 W hs0 c b (Fin.castAdd k c) (by rw [Fin.val_castAdd, Nat.zero_add])]
    refine congrArg (· * _) ?_
    refine concatenate_pair_apply_left (2 : Fin 3) A B hcat (ix3 g a (Fin.castAdd k c)) rfl (ix3 g a c) ?_
    intro ax
    match ax with
    | ⟨0, _⟩ => rfl
    | ⟨1, _⟩ => rfl
    | ⟨2, _⟩ => rfl
  · rw [memberAt_apply, cons_ix2,
      slice2_axis0_apply k W hs1 c b (Fin.natAdd k c) (by rw [Fin.val_natAdd])]
    refine congrArg (· * _) ?_
    refine concatenate_pair_apply_right (2 : Fin 3) A B hcat (ix3 g a (Fin.natAdd k c)) rfl rfl (ix3 g a c) ?_ ?_
    · intro ax hax
      match ax with
      | ⟨0, _⟩ => rfl
      | ⟨1, _⟩ => rfl
      | ⟨2, _⟩ => exact absurd rfl hax
    · show c.val + k = (Fin.natAdd k c).val
      rw [Fin.val_natAdd, Nat.add_comm]

end StackLaws

end
-- ==== Proof.LibStackSum.lean ====
/-
  The readout over a stack of matrices [G, m, n]: summing (Y + bias) over the m rows of each member, as a reference
  does with one reduce over the stack, is the kernel's column sum of the member plus m times the bias row — on the
  extended reals, with no finiteness needed: a sum of (y + β) over m terms is the sum of the y plus m·β because
  addition there is commutative and associative and m·β is β added m times.
-/
import proofs.«149841_g85813446574462_cont_9to1c4b_288_7_alg».proof.Proof.LibStackDot
import Idealize.ShloMosaic.Lib.ValueLayout
import Idealize.ShloMosaic.Lib.IdealHost
import Mathlib.Data.EReal.Operations

noncomputable section

namespace StackLaws

open Idealize.ShloMosaic Idealize.ShloMosaic.ValueIdx Idealize.ShloMosaic.StackMember

variable {α : Type} {G m n : Nat}

/-- A vector [n] broadcast to [1, 1, n] and then to the stack [G, m, n] reads, at (g, a, c), the vector at c. -/
theorem bias_apply (b : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![G, m, n]⟩ ![0, 1, 2]) (g : Fin G) (a : Fin m) (c : Fin n) :
    broadcastInDim ⟨3, ![G, m, n]⟩ ![0, 1, 2] h2 (broadcastInDim ⟨3, ![1, 1, n]⟩ ![2] h1 b) (ix3 g a c) = b (ix1 c) := by
  have hcn : c.val < n := c.isLt
  refine (broadcastInDim_apply ![0, 1, 2] h2 _ (ix3 g a c) (ix3 (0 : Fin 1) (0 : Fin 1) c) ?_).trans
    (broadcastInDim_apply ![2] h1 b _ (ix1 c) ?_)
  · intro ax
    match ax with
    | ⟨0, _⟩ => rfl
    | ⟨1, _⟩ => rfl
    | ⟨2, _⟩ =>
      show c.val = if n = 1 then 0 else c.val
      split
      · omega
      · rfl
  · intro ax
    match ax with
    | ⟨0, _⟩ =>
      show c.val = if n = 1 then 0 else c.val
      split
      · omega
      · rfl

/-- On the extended reals: a sum of (y a + β) over a in Fin m is the sum of the y a plus m·β. -/
theorem sum_add_const (y : Fin m → EReal) (β : EReal) : ∑ a : Fin m, (y a + β) = ∑ a : Fin m, y a + (m : EReal) * β := by
  rw [Finset.sum_add_distrib, Finset.sum_const, Finset.card_univ, Fintype.card_fin, EReal.nsmul_eq_mul]

/-- Summing (Y + bias) over the rows of every member (a reduce-add from zero over axis 1 of the stack), read as one
    row [1, n] per member, is the kernel's column sums of the member as one row plus the splat of `cw` times the bias
    row, when the pattern `cw` denotes the number of rows m. -/
theorem member_colsum_bias (Y : FVec Ideal ⟨3, ![G, m, n]⟩ .f32) (b : FVec Ideal ⟨1, ![n]⟩ .f32) (cw : BitVec FTy.f32.bits)
    (hcw : Ideal.ofBits .f32 cw = ((m : ℕ) : EReal))
    (h1 : (⟨1, ![n]⟩ : Shape).BroadcastsInDim ⟨3, ![1, 1, n]⟩ ![2])
    (h2 : (⟨3, ![1, 1, n]⟩ : Shape).BroadcastsInDim ⟨3, ![G, m, n]⟩ ![0, 1, 2])
    (hR' : (⟨3, ![G, m, n]⟩ : Shape).ReducesTo [1] ⟨2, ![G, n]⟩) (hu : 0 < (⟨0, ![]⟩ : Shape).numel)
    (hred : (⟨2, ![m, n]⟩ : Shape).Reduces [0] ⟨1, ![n]⟩) (hφ : FKind.Formats .f32)
    (hacc : (0x00000000#32 : BitVec FTy.f32.bits) = FKind.add.neutral .f32 hφ)
    (hc : (⟨1, ![n]⟩ : Shape).ShapeCasts ⟨2, ![1, n]⟩) (g : Fin G) :
    shapeCast ⟨2, ![1, n]⟩
        (memberAt (d := ![n])
          (Host.reduceAdd (addf Y (broadcastInDim ⟨3, ![G, m, n]⟩ ![0, 1, 2] h2 (broadcastInDim ⟨3, ![1, 1, n]⟩ ![2] h1 b)))
            (constant (F := Ideal) ⟨0, ![]⟩ .f32 0x00000000#32) hR' hu) g) hc
      = addf
          (shapeCast ⟨2, ![1, n]⟩
            (multiReduction .add [0] ⟨1, ![n]⟩ (memberAt (d := ![m, n]) Y g) 0x00000000#32 hred hφ hacc) hc)
          (mulf (broadcast ⟨2, ![1, n]⟩ (Scalar.ofBits (F := Ideal) .f32 cw)) (shapeCast ⟨2, ![1, n]⟩ b hc)) := by
  have hR : (⟨3, ![G, m, n]⟩ : Shape).Reduces [1] ⟨2, ![G, n]⟩ := ⟨hR'.1, Nat.two_pos, hR'.2⟩
  funext i
  obtain ⟨u, j, rfl⟩ : ∃ (u : Fin 1) (j : Fin n), i = ix2 u j := ⟨i 0, i 1, eq_ix2 i⟩
  refine Eq.trans ?_ (addf_apply _ _ (ix2 u j)).symm
  refine Eq.trans ?_ (congrArg (_ + ·) (mulf_apply _ _ (ix2 u j)).symm)
  rw [shapeCast_a_1a_apply, shapeCast_a_1a_apply, shapeCast_a_1a_apply, broadcast_apply, memberAt_apply, cons_ix1]
  refine Eq.trans (hostReduceAdd_apply _ _ hR' hu (ix2 g j)) ?_
  rw [Ideal.hostReduceAdd_single hR' hR, Ideal.multiReduction_add_single _ _ hred hφ hacc (ix1 j)]
  refine Eq.trans (congrArg (· + _) Ideal.ofBits_zero_f32) ?_
  rw [zero_add]
  have hterm : ∀ a : Fin m,
      (addf Y (broadcastInDim ⟨3, ![G, m, n]⟩ ![0, 1, 2] h2 (broadcastInDim ⟨3, ![1, 1, n]⟩ ![2] h1 b))) (hR.lift (ix2 g j) a)
        = memberAt (d := ![m, n]) Y g (hred.lift (ix1 j) a) + b (ix1 j) := by
    intro a
    have e : hR.lift (ix2 g j) a = ix3 g a j := by
      funext ax; apply Fin.ext
      match ax with
      | ⟨0, _⟩ => rfl
      | ⟨1, _⟩ => rfl
      | ⟨2, _⟩ => rfl
    have e' : (Fin.cons g (hred.lift (ix1 j) a) : (⟨3, ![G, m, n]⟩ : Shape).Idx) = ix3 g a j := by
      funext ax; apply Fin.ext
      match ax with
      | ⟨0, _⟩ => rfl
      | ⟨1, _⟩ => rfl
      | ⟨2, _⟩ => rfl
    rw [e, addf_apply, bias_apply, memberAt_apply, e']
  refine (Finset.sum_congr rfl fun a _ => hterm a).trans ?_
  refine (sum_add_const (m := m) (fun a => memberAt (d := ![m, n]) Y g (hred.lift (ix1 j) a)) (b (ix1 j))).trans ?_
  refine congrArg (_ + ·) ?_
  show ((m : ℕ) : EReal) * b (ix1 j) = Ideal.ofBits .f32 cw * b (ix1 j)
  rw [hcw]

end StackLaws

end
-- ==== Proof.Member.lean ====
/-
  Member g of each of the reference's stack layers is the kernel's per-jet layer applied to member g of the stack:
  the embedding, the soft adjacency, the message, the vertex update (a product with the concatenation [h ‖ msg] is
  the sum of two products with the halves of W) and the readout (the sum of (y + b2) over 200 nodes is the column
  sum plus 200·b2). At the ideal values a change of float format is the identity.
-/
import proofs.«149841_g85813446574462_cont_9to1c4b_288_7_alg».proof.Proof.Jet
import proofs.«149841_g85813446574462_cont_9to1c4b_288_7_alg».proof.Proof.RefStack
import proofs.«149841_g85813446574462_cont_9to1c4b_288_7_alg».proof.Proof.LibStackRows
import proofs.«149841_g85813446574462_cont_9to1c4b_288_7_alg».proof.Proof.LibStackProd
import proofs.«149841_g85813446574462_cont_9to1c4b_288_7_alg».proof.Proof.LibStackSum

noncomputable section

namespace Cert.Member

open Idealize.ShloMosaic Idealize.ShloMosaic.ValueIdx Idealize.ShloMosaic.StackMember StackLaws
open Cert.ReferenceIdeal (Stack.emb Stack.bias Stack.logits Stack.expo Stack.norm Stack.adj Stack.message Stack.update Stack.step Stack.readout)
open Cert.KernelIdeal (Jet.emb Jet.logits Jet.expo Jet.norm Jet.adj Jet.msg Jet.update Jet.step Jet.readout)

/-- A change of float format is the identity at the ideal values. -/
theorem truncf_id {s : Shape} {φ ψ : FTy} (a : FVec Ideal s φ) (h : ψ.bits < φ.bits) : (truncf ψ a h : FVec Ideal s ψ) = a := rfl

/-- A bias vector as the kernel's host code hands it over: one row [1, 256]. -/
abbrev row (b : FVec Ideal ⟨1, ![256]⟩ .f32) : FVec Ideal ⟨2, ![1, 256]⟩ .f32 :=
  shapeCast ⟨2, ![1, 256]⟩ b Cert.KernelIdeal.Facts₀.shapeCasts_S256_S1x256

/-! ## Each operation of the stack, read at a member -/

theorem bias_member (b : FVec Ideal ⟨1, ![256]⟩ .f32) (g : Fin 128) :
    memberAt (d := ![200, 256]) (Stack.bias b) g
      = broadcastTo ⟨2, ![200, 256]⟩ (row b) Cert.KernelIdeal.Facts₀.broadcasts_S1x256_S200x256 :=
  member_bias b _ _ _ _ g

theorem dot_emb_member (x : FVec Ideal ⟨3, ![128, 200, 8]⟩ .f32) (W : FVec Ideal ⟨2, ![8, 256]⟩ .f32) (g : Fin 128) :
    memberAt (d := ![200, 256]) (Host.dotGeneral Cert.ReferenceIdeal.dot_S128x200x8_S8x256_S128x200x256_2_0_01_1_n_n none x W) g
      = matmul (φ₁ := .bf16) (φ₂ := .bf16) Cert.KernelIdeal.dot_S200x8_S8x256_S200x256_1_0_0_1_n_n none
          (memberAt (d := ![200, 8]) x g) W (constant ⟨2, ![200, 256]⟩ .f32 0x00000000#32) :=
  member_dot_rows _ _ none none x W g

theorem member_emb (x : FVec Ideal ⟨3, ![128, 200, 8]⟩ .f32) (W : FVec Ideal ⟨2, ![8, 256]⟩ .f32)
    (b : FVec Ideal ⟨1, ![256]⟩ .f32) (g : Fin 128) :
    memberAt (d := ![200, 256]) (Stack.emb x W b) g = Jet.emb (memberAt (d := ![200, 8]) x g) W (row b) := by
  unfold Stack.emb Jet.emb
  rw [memberAt_hostTanh, memberAt_addf, dot_emb_member, bias_member, truncf_id]

theorem dot_gram_member (h : FVec Ideal ⟨3, ![128, 200, 256]⟩ .f32) (g : Fin 128) :
    memberAt (d := ![200, 200]) (Host.dotGeneral Cert.ReferenceIdeal.dot_S128x200x256_S128x200x256_S128x200x200_2_2_1_1_0_0 none h h) g
      = matmul (φ₁ := .bf16) (φ₂ := .bf16) Cert.KernelIdeal.dot_S200x256_S200x256_S200x200_1_1_0_0_n_n none
          (memberAt (d := ![200, 256]) h g) (memberAt (d := ![200, 256]) h g) (constant ⟨2, ![200, 200]⟩ .f32 0x00000000#32) :=
  member_dot_gram _ _ none none h h g

theorem dot_stack_member (a : FVec Ideal ⟨3, ![128, 200, 200]⟩ .f32) (h : FVec Ideal ⟨3, ![128, 200, 256]⟩ .f32) (g : Fin 128) :
    memberAt (d := ![200, 256]) (Host.dotGeneral Cert.ReferenceIdeal.dot_S128x200x200_S128x200x256_S128x200x256_2_1_1_2_0_0 none a h) g
      = matmul (φ₁ := .bf16) (φ₂ := .bf16) Cert.KernelIdeal.dot_S200x200_S200x256_S200x256_1_0_0_1_n_n none
          (memberAt (d := ![200, 200]) a g) (memberAt (d := ![200, 256]) h g) (constant ⟨2, ![200, 256]⟩ .f32 0x00000000#32) :=
  member_dot_stack _ _ none none a h g

theorem dot_256_member (h : FVec Ideal ⟨3, ![128, 200, 256]⟩ .f32) (W : FVec Ideal ⟨2, ![256, 256]⟩ .f32) (g : Fin 128) :
    memberAt (d := ![200, 256]) (Host.dotGeneral Cert.ReferenceIdeal.dot_S128x200x256_S256x256_S128x200x256_2_0_01_1_n_n none h W) g
      = matmul (φ₁ := .bf16) (φ₂ := .bf16) Cert.KernelIdeal.dot_S200x256_S256x256_S200x256_1_0_0_1_n_n none
          (memberAt (d := ![200, 256]) h g) W (constant ⟨2, ![200, 256]⟩ .f32 0x00000000#32) :=
  member_dot_rows _ _ none none h W g

theorem dot_concat_member (h ms : FVec Ideal ⟨3, ![128, 200, 256]⟩ .f32) (W : FVec Ideal ⟨2, ![512, 256]⟩ .f32) (g : Fin 128) :
    memberAt (d := ![200, 256]) (Host.dotGeneral Cert.ReferenceIdeal.dot_S128x200x512_S512x256_S128x200x256_2_0_01_1_n_n none
        (concatenate ⟨3, ![128, 200, 512]⟩ 2 [⟨⟨3, ![128, 200, 256]⟩, h⟩, ⟨⟨3, ![128, 200, 256]⟩, ms⟩]
          Cert.ReferenceIdeal.Facts₀.concatenates_S128x200x256_S128x200x256_S128x200x512_d2) W) g
      = addf
          (matmul (φ₁ := .bf16) (φ₂ := .bf16) Cert.KernelIdeal.dot_S200x256_S256x256_S200x256_1_0_0_1_n_n none
            (memberAt (d := ![200, 256]) h g)
            (extractStridedSlice ⟨2, ![256, 256]⟩ ![0, 0] W Cert.KernelIdeal.Facts₀.slices_S512x256_o0_0_S256x256)
            (constant ⟨2, ![200, 256]⟩ .f32 0x00000000#32))
          (matmul (φ₁ := .bf16) (φ₂ := .bf16) Cert.KernelIdeal.dot_S200x256_S256x256_S200x256_1_0_0_1_n_n none
            (memberAt (d := ![200, 256]) ms g)
            (extractStridedSlice ⟨2, ![256, 256]⟩ ![256, 0] W Cert.KernelIdeal.Facts₀.slices_S512x256_o256_0_S256x256)
            (constant ⟨2, ![200, 256]⟩ .f32 0x00000000#32)) :=
  member_concat_dot (k := 256) rfl _ _ _ _ _ none none h ms W g

theorem scale_member (g : Fin 128) :
    memberAt (d := ![200, 200]) (broadcastInDim ⟨3, ![128, 200, 200]⟩ ![] Cert.ReferenceIdeal.Facts₀.bcast_S_S128x200x200
        (constant (F := Ideal) ⟨0, ![]⟩ .f32 0x3D800000#32)) g
      = broadcast ⟨2, ![200, 200]⟩ (Scalar.ofBits (F := Ideal) .f32 0x3D800000#32) :=
  member_scalar _ _ g

/-! ## The layers -/

theorem member_logits (h : FVec Ideal ⟨3, ![128, 200, 256]⟩ .f32) (g : Fin 128) :
    memberAt (d := ![200, 200]) (Stack.logits h) g
      = Jet.logits (memberAt (d := ![200, 256]) h g) (constant ⟨2, ![200, 200]⟩ .f32 0x00000000#32) := by
  unfold Stack.logits Jet.logits
  rw [memberAt_mulf, dot_gram_member, scale_member]

theorem member_expo (l : FVec Ideal ⟨3, ![128, 200, 200]⟩ .f32) (g : Fin 128) :
    memberAt (d := ![200, 200]) (Stack.expo l) g = Jet.expo (memberAt (d := ![200, 200]) l g) := by
  unfold Stack.expo Jet.expo
  rw [memberAt_hostExp, memberAt_subf]
  exact congrArg (fun r => exp (subf (memberAt (d := ![200, 200]) l g) r))
    (member_rowmax l 0xFF800000#32 _ _ _ _ _ Cert.KernelIdeal.Facts₀.reduces_S200x200_S200 (.inl rfl) rfl _ _ g)

theorem member_norm (e : FVec Ideal ⟨3, ![128, 200, 200]⟩ .f32) (g : Fin 128) :
    memberAt (d := ![200, 200]) (Stack.norm e) g = Jet.norm (memberAt (d := ![200, 200]) e g) := by
  unfold Stack.norm Jet.norm
  rw [memberAt_hostDivf]
  exact congrArg (fun r => divf (memberAt (d := ![200, 200]) e g) r)
    (member_rowsum e _ _ _ _ Cert.KernelIdeal.Facts₀.reduces_S200x200_S200 (.inl rfl) rfl _ _ g)

theorem member_adj (h : FVec Ideal ⟨3, ![128, 200, 256]⟩ .f32) (g : Fin 128) :
    memberAt (d := ![200, 200]) (Stack.adj h) g
      = Jet.adj (memberAt (d := ![200, 256]) h g) (constant ⟨2, ![200, 200]⟩ .f32 0x00000000#32) := by
  unfold Stack.adj Jet.adj
  rw [member_norm, member_expo, member_logits]

theorem member_message (h : FVec Ideal ⟨3, ![128, 200, 256]⟩ .f32) (g : Fin 128) :
    memberAt (d := ![200, 256]) (Stack.message h) g
      = Jet.msg (memberAt (d := ![200, 256]) h g) (constant ⟨2, ![200, 200]⟩ .f32 0x00000000#32) := by
  unfold Stack.message Jet.msg
  rw [dot_stack_member, member_adj, truncf_id]

theorem member_update (h ms : FVec Ideal ⟨3, ![128, 200, 256]⟩ .f32) (W : FVec Ideal ⟨2, ![512, 256]⟩ .f32)
    (b : FVec Ideal ⟨1, ![256]⟩ .f32) (g : Fin 128) :
    memberAt (d := ![200, 256]) (Stack.update h ms W b) g
      = Jet.update (memberAt (d := ![200, 256]) h g) (memberAt (d := ![200, 256]) ms g) W (row b) := by
  unfold Stack.update Jet.update
  rw [memberAt_hostTanh, memberAt_addf, dot_concat_member, bias_member, truncf_id, truncf_id]

theorem member_step (h : FVec Ideal ⟨3, ![128, 200, 256]⟩ .f32) (W : FVec Ideal ⟨2, ![512, 256]⟩ .f32)
    (b : FVec Ideal ⟨1, ![256]⟩ .f32) (g : Fin 128) :
    memberAt (d := ![200, 256]) (Stack.step h W b) g
      = Jet.step (memberAt (d := ![200, 256]) h g) (constant ⟨2, ![200, 200]⟩ .f32 0x00000000#32) W (row b) := by
  unfold Stack.step Jet.step
  rw [member_update, member_message]

/-- The pattern 0x43480000 is the number 200, the count of nodes of a jet. -/
theorem ofBits_200 : Ideal.ofBits .f32 0x43480000#32 = ((200 : ℕ) : EReal) := by
  rw [show ((200 : ℕ) : EReal) = ((200 : ℝ) : EReal) by norm_cast]
  simp [Ideal.ofBits, Ideal.ieee, -EReal.coe_mul]; norm_num

theorem member_readout (h : FVec Ideal ⟨3, ![128, 200, 256]⟩ .f32) (W1 : FVec Ideal ⟨2, ![256, 256]⟩ .f32)
    (b1 : FVec Ideal ⟨1, ![256]⟩ .f32) (W2 : FVec Ideal ⟨2, ![256, 256]⟩ .f32) (b2 : FVec Ideal ⟨1, ![256]⟩ .f32) (g : Fin 128) :
    shapeCast ⟨2, ![1, 256]⟩ (memberAt (d := ![256]) (Stack.readout h W1 b1 W2 b2) g) Cert.KernelIdeal.Facts₀.shapeCasts_S256_S1x256
      = Jet.readout (memberAt (d := ![200, 256]) h g) W1 (row b1) W2 (row b2) := by
  unfold Stack.readout Jet.readout
  refine (member_colsum_bias (m := 200) _ b2 0x43480000#32 ofBits_200 _ _ _ _
    Cert.KernelIdeal.Facts₀.reduces_S200x256_S256 (.inl rfl) rfl _ g).trans ?_
  rw [dot_256_member, memberAt_hostTanh, memberAt_addf, dot_256_member, bias_member, truncf_id]

end Cert.Member

end
-- ==== Proof.RefValue.lean ====
/-
  The reference's run, read: the fold of its operation list, chunk by chunk, is the composition of the stack layers —
  the embedding, three message-passing iterations, and then the readout of the last hidden states and the soft
  adjacency of the states after two iterations — of the argument arrays, which the run leaves unchanged.
-/
import proofs.«149841_g85813446574462_cont_9to1c4b_288_7_alg».proof.Proof.RefStack

noncomputable section

namespace Cert.ReferenceIdeal.Stack

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- The hidden states after the embedding and after one, two and three iterations, of a valuation's argument buffers. -/
def hid0 (V : Valuation τ sig (Elt F)) : FVec F S128x200x256 .f32 := emb (V (Proc.devRef .tc main_arg0)) (V (Proc.devRef .tc main_arg1)) (V (Proc.devRef .tc main_arg2))
def hid1 (V : Valuation τ sig (Elt F)) : FVec F S128x200x256 .f32 := step (hid0 V) (V (Proc.devRef .tc main_arg3)) (V (Proc.devRef .tc main_arg4))
def hid2 (V : Valuation τ sig (Elt F)) : FVec F S128x200x256 .f32 := step (hid1 V) (V (Proc.devRef .tc main_arg5)) (V (Proc.devRef .tc main_arg6))
def hid3 (V : Valuation τ sig (Elt F)) : FVec F S128x200x256 .f32 := step (hid2 V) (V (Proc.devRef .tc main_arg7)) (V (Proc.devRef .tc main_arg8))

/-- The first result: the readout of the states after three iterations. -/
theorem after_v78 (V : Valuation τ sig (Elt F)) :
    after (ops (F := F)) V (Proc.devRef .tc main_v78)
      = readout (hid3 V) (V (Proc.devRef .tc main_arg9)) (V (Proc.devRef .tc main_arg10)) (V (Proc.devRef .tc main_arg11)) (V (Proc.devRef .tc main_arg12)) := by
  rw [after_ops]
  rw [R_v78,
    I3b_v68,
    keep_opsI3b_main_arg9,
    keep_opsI3b_main_arg10,
    keep_opsI3b_main_arg11,
    keep_opsI3b_main_arg12,
    keep_opsI3a_main_v47,
    I3a_v62,
    keep_opsI3a_main_arg7,
    keep_opsI3a_main_arg8,
    keep_opsI3a_main_arg9,
    keep_opsI3a_main_arg10,
    keep_opsI3a_main_arg11,
    keep_opsI3a_main_arg12,
    I2b_v47,
    keep_opsI2b_main_arg7,
    keep_opsI2b_main_arg8,
    keep_opsI2b_main_arg9,
    keep_opsI2b_main_arg10,
    keep_opsI2b_main_arg11,
    keep_opsI2b_main_arg12,
    keep_opsI2a_main_v26,
    I2a_v41,
    keep_opsI2a_main_arg5,
    keep_opsI2a_main_arg6,
    keep_opsI2a_main_arg7,
    keep_opsI2a_main_arg8,
    keep_opsI2a_main_arg9,
    keep_opsI2a_main_arg10,
    keep_opsI2a_main_arg11,
    keep_opsI2a_main_arg12,
    I1b_v26,
    keep_opsI1b_main_arg5,
    keep_opsI1b_main_arg6,
    keep_opsI1b_main_arg7,
    keep_opsI1b_main_arg8,
    keep_opsI1b_main_arg9,
    keep_opsI1b_main_arg10,
    keep_opsI1b_main_arg11,
    keep_opsI1b_main_arg12,
    keep_opsI1a_main_v4,
    I1a_v20,
    keep_opsI1a_main_arg3,
    keep_opsI1a_main_arg4,
    keep_opsI1a_main_arg5,
    keep_opsI1a_main_arg6,
    keep_opsI1a_main_arg7,
    keep_opsI1a_main_arg8,
    keep_opsI1a_main_arg9,
    keep_opsI1a_main_arg10,
    keep_opsI1a_main_arg11,
    keep_opsI1a_main_arg12,
    E_v4,
    keep_opsE_main_arg3,
    keep_opsE_main_arg4,
    keep_opsE_main_arg5,
    keep_opsE_main_arg6,
    keep_opsE_main_arg7,
    keep_opsE_main_arg8,
    keep_opsE_main_arg9,
    keep_opsE_main_arg10,
    keep_opsE_main_arg11,
    keep_opsE_main_arg12]
  rfl

/-- The second result: the soft adjacency of the states after two iterations. -/
theorem after_v61 (V : Valuation τ sig (Elt F)) :
    after (ops (F := F)) V (Proc.devRef .tc main_v61) = adj (hid2 V) := by
  rw [after_ops]
  rw [keep_opsR_main_v61,
    keep_opsI3b_main_v61,
    I3a_v61,
    I2b_v47,
    keep_opsI2a_main_v26,
    I2a_v41,
    keep_opsI2a_main_arg5,
    keep_opsI2a_main_arg6,
    I1b_v26,
    keep_opsI1b_main_arg5,
    keep_opsI1b_main_arg6,
    keep_opsI1a_main_v4,
    I1a_v20,
    keep_opsI1a_main_arg3,
    keep_opsI1a_main_arg4,
    keep_opsI1a_main_arg5,
    keep_opsI1a_main_arg6,
    E_v4,
    keep_opsE_main_arg3,
    keep_opsE_main_arg4,
    keep_opsE_main_arg5,
    keep_opsE_main_arg6]
  rfl

/-- The reference's run: the two results at the stack layers of the launch contents, the thirteen argument arrays
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
        = readout
            (step (step (step (emb (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))) (m ((c.tc : Thread nD τ).loc main_arg5)) (m ((c.tc : Thread nD τ).loc main_arg6)))
              (m ((c.tc : Thread nD τ).loc main_arg7)) (m ((c.tc : Thread nD τ).loc main_arg8)))
            (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v61)
        = adj (step (step (emb (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v78).trans (after_v78 _), (h c main_v61).trans (after_v61 _),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _)⟩)
    (run_fold m ρ)

end Cert.ReferenceIdeal.Stack

end
-- ==== Proof.Bridge.lean ====
/-
  The kernel's two result arrays are the reference's stack layers of the argument arrays, at the ideal values.
  The host lines before the region only change a float format (the identity here) or reshape a bias vector to one
  row; so jet g's hidden states, layer by layer, are member g of the stack's hidden states, its soft adjacency is
  member g of the stack's, and its readout row is member g of the stack's readout; the arrays, assembled from the
  128 jets, are the stack's.
-/
import proofs.«149841_g85813446574462_cont_9to1c4b_288_7_alg».proof.Proof.KernelValue
import proofs.«149841_g85813446574462_cont_9to1c4b_288_7_alg».proof.Proof.Member
import proofs.«149841_g85813446574462_cont_9to1c4b_288_7_alg».proof.Proof.RefValue

noncomputable section

/-! ## The arrays the region finds, from the host lines before it -/

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem V_v0 (c : Dev nD) :
    V m c main_v0 = truncf .bf16 (m ((c.tc : Thread nD τ).loc main_arg0) : FVec F S128x200x8 .f32) bitsLt_bf16_f32 := by
  show StableHlo.after hostOps0 (fun b => m (c, b)) (Proc.devRef .tc main_v0) = _
  after_results <;> rfl
theorem V_v1 (c : Dev nD) :
    V m c main_v1 = truncf .bf16 (m ((c.tc : Thread nD τ).loc main_arg1) : FVec F S8x256 .f32) bitsLt_bf16_f32 := by
  show StableHlo.after hostOps0 (fun b => m (c, b)) (Proc.devRef .tc main_v1) = _
  after_results <;> rfl
theorem V_v2 (c : Dev nD) :
    V m c main_v2 = truncf .bf16 (m ((c.tc : Thread nD τ).loc main_arg3) : FVec F S512x256 .f32) bitsLt_bf16_f32 := by
  show StableHlo.after hostOps0 (fun b => m (c, b)) (Proc.devRef .tc main_v2) = _
  after_results <;> rfl
theorem V_v3 (c : Dev nD) :
    V m c main_v3 = truncf .bf16 (m ((c.tc : Thread nD τ).loc main_arg5) : FVec F S512x256 .f32) bitsLt_bf16_f32 := by
  show StableHlo.after hostOps0 (fun b => m (c, b)) (Proc.devRef .tc main_v3) = _
  after_results <;> rfl
theorem V_v4 (c : Dev nD) :
    V m c main_v4 = truncf .bf16 (m ((c.tc : Thread nD τ).loc main_arg7) : FVec F S512x256 .f32) bitsLt_bf16_f32 := by
  show StableHlo.after hostOps0 (fun b => m (c, b)) (Proc.devRef .tc main_v4) = _
  after_results <;> rfl
theorem V_v5 (c : Dev nD) :
    V m c main_v5 = truncf .bf16 (m ((c.tc : Thread nD τ).loc main_arg9) : FVec F S256x256 .f32) bitsLt_bf16_f32 := by
  show StableHlo.after hostOps0 (fun b => m (c, b)) (Proc.devRef .tc main_v5) = _
  after_results <;> rfl
theorem V_v6 (c : Dev nD) :
    V m c main_v6 = truncf .bf16 (m ((c.tc : Thread nD τ).loc main_arg11) : FVec F S256x256 .f32) bitsLt_bf16_f32 := by
  show StableHlo.after hostOps0 (fun b => m (c, b)) (Proc.devRef .tc main_v6) = _
  after_results <;> rfl
theorem V_v7 (c : Dev nD) :
    V m c main_v7 = shapeCast S1x256 (m ((c.tc : Thread nD τ).loc main_arg2) : FVec F S256 .f32) shapeCasts_S256_S1x256 := by
  show StableHlo.after hostOps0 (fun b => m (c, b)) (Proc.devRef .tc main_v7) = _
  after_results <;> rfl
theorem V_v8 (c : Dev nD) :
    V m c main_v8 = shapeCast S1x256 (m ((c.tc : Thread nD τ).loc main_arg4) : FVec F S256 .f32) shapeCasts_S256_S1x256 := by
  show StableHlo.after hostOps0 (fun b => m (c, b)) (Proc.devRef .tc main_v8) = _
  after_results <;> rfl
theorem V_v9 (c : Dev nD) :
    V m c main_v9 = shapeCast S1x256 (m ((c.tc : Thread nD τ).loc main_arg6) : FVec F S256 .f32) shapeCasts_S256_S1x256 := by
  show StableHlo.after hostOps0 (fun b => m (c, b)) (Proc.devRef .tc main_v9) = _
  after_results <;> rfl
theorem V_v10 (c : Dev nD) :
    V m c main_v10 = shapeCast S1x256 (m ((c.tc : Thread nD τ).loc main_arg8) : FVec F S256 .f32) shapeCasts_S256_S1x256 := by
  show StableHlo.after hostOps0 (fun b => m (c, b)) (Proc.devRef .tc main_v10) = _
  after_results <;> rfl
theorem V_v11 (c : Dev nD) :
    V m c main_v11 = shapeCast S1x256 (m ((c.tc : Thread nD τ).loc main_arg10) : FVec F S256 .f32) shapeCasts_S256_S1x256 := by
  show StableHlo.after hostOps0 (fun b => m (c, b)) (Proc.devRef .tc main_v11) = _
  after_results <;> rfl
theorem V_v12 (c : Dev nD) :
    V m c main_v12 = shapeCast S1x256 (m ((c.tc : Thread nD τ).loc main_arg12) : FVec F S256 .f32) shapeCasts_S256_S1x256 := by
  show StableHlo.after hostOps0 (fun b => m (c, b)) (Proc.devRef .tc main_v12) = _
  after_results <;> rfl

end Cert.KernelIdeal.Hand

/-! ## Jet by jet, the kernel's layers are the stack's members -/

namespace Cert.Bridge

open Idealize.ShloMosaic Idealize.ShloMosaic.TcCoe Idealize.SL.Sem
open Idealize.ShloMosaic.ValueIdx Idealize.ShloMosaic.StackMember StackLaws Cert.Member
open Cert.ReferenceIdeal (Stack.emb Stack.adj Stack.step Stack.readout)
open Cert.KernelIdeal (Hand.jetIn Hand.H0 Hand.H1 Hand.H2 Hand.H3 Hand.adjOf Hand.readOf Hand.Aout Hand.Rout)

variable (m : (ℓ : Loc Cert.KernelIdeal.nD Cert.KernelIdeal.τ Cert.KernelIdeal.sig) → Buf (Elt Ideal) ℓ) (c : Dev Cert.KernelIdeal.nD)

/-- The kernel's argument arrays at the ideal values. -/
abbrev x : FVec Ideal ⟨3, ![128, 200, 8]⟩ .f32 := (m ((c.tc : Thread Cert.KernelIdeal.nD Cert.KernelIdeal.τ).loc Cert.KernelIdeal.main_arg0))
abbrev We : FVec Ideal ⟨2, ![8, 256]⟩ .f32 := (m ((c.tc : Thread Cert.KernelIdeal.nD Cert.KernelIdeal.τ).loc Cert.KernelIdeal.main_arg1))
abbrev be : FVec Ideal ⟨1, ![256]⟩ .f32 := (m ((c.tc : Thread Cert.KernelIdeal.nD Cert.KernelIdeal.τ).loc Cert.KernelIdeal.main_arg2))
abbrev W0 : FVec Ideal ⟨2, ![512, 256]⟩ .f32 := (m ((c.tc : Thread Cert.KernelIdeal.nD Cert.KernelIdeal.τ).loc Cert.KernelIdeal.main_arg3))
abbrev b0 : FVec Ideal ⟨1, ![256]⟩ .f32 := (m ((c.tc : Thread Cert.KernelIdeal.nD Cert.KernelIdeal.τ).loc Cert.KernelIdeal.main_arg4))
abbrev W1 : FVec Ideal ⟨2, ![512, 256]⟩ .f32 := (m ((c.tc : Thread Cert.KernelIdeal.nD Cert.KernelIdeal.τ).loc Cert.KernelIdeal.main_arg5))
abbrev b1 : FVec Ideal ⟨1, ![256]⟩ .f32 := (m ((c.tc : Thread Cert.KernelIdeal.nD Cert.KernelIdeal.τ).loc Cert.KernelIdeal.main_arg6))
abbrev W2 : FVec Ideal ⟨2, ![512, 256]⟩ .f32 := (m ((c.tc : Thread Cert.KernelIdeal.nD Cert.KernelIdeal.τ).loc Cert.KernelIdeal.main_arg7))
abbrev b2 : FVec Ideal ⟨1, ![256]⟩ .f32 := (m ((c.tc : Thread Cert.KernelIdeal.nD Cert.KernelIdeal.τ).loc Cert.KernelIdeal.main_arg8))
abbrev Wr1 : FVec Ideal ⟨2, ![256, 256]⟩ .f32 := (m ((c.tc : Thread Cert.KernelIdeal.nD Cert.KernelIdeal.τ).loc Cert.KernelIdeal.main_arg9))
abbrev br1 : FVec Ideal ⟨1, ![256]⟩ .f32 := (m ((c.tc : Thread Cert.KernelIdeal.nD Cert.KernelIdeal.τ).loc Cert.KernelIdeal.main_arg10))
abbrev Wr2 : FVec Ideal ⟨2, ![256, 256]⟩ .f32 := (m ((c.tc : Thread Cert.KernelIdeal.nD Cert.KernelIdeal.τ).loc Cert.KernelIdeal.main_arg11))
abbrev br2 : FVec Ideal ⟨1, ![256]⟩ .f32 := (m ((c.tc : Thread Cert.KernelIdeal.nD Cert.KernelIdeal.τ).loc Cert.KernelIdeal.main_arg12))

/-- The stack's hidden states after the embedding and after one, two and three iterations. -/
def S0 : FVec Ideal ⟨3, ![128, 200, 256]⟩ .f32 := Stack.emb (x m c) (We m c) (be m c)
def S1 : FVec Ideal ⟨3, ![128, 200, 256]⟩ .f32 := Stack.step (S0 m c) (W0 m c) (b0 m c)
def S2 : FVec Ideal ⟨3, ![128, 200, 256]⟩ .f32 := Stack.step (S1 m c) (W1 m c) (b1 m c)
def S3 : FVec Ideal ⟨3, ![128, 200, 256]⟩ .f32 := Stack.step (S2 m c) (W2 m c) (b2 m c)

theorem jetIn_eq (g : Fin 128) : Hand.jetIn m c g = memberAt (d := ![200, 8]) (x m c) g := by
  funext y
  obtain ⟨p, q, rfl⟩ : ∃ (p : Fin 200) (q : Fin 8), y = ix2 p q := ⟨y 0, y 1, eq_ix2 y⟩
  unfold Hand.jetIn
  rw [Cert.KernelIdeal.Hand.V_v0, memberAt_apply, cons_ix2]
  rfl

theorem H0_eq (g : Fin 128) : Hand.H0 m c g = memberAt (d := ![200, 256]) (S0 m c) g := by
  unfold Hand.H0 S0
  rw [jetIn_eq, Cert.KernelIdeal.Hand.V_v1, Cert.KernelIdeal.Hand.V_v7]
  exact (member_emb (x m c) (We m c) (be m c) g).symm

theorem H1_eq (g : Fin 128) : Hand.H1 m c g = memberAt (d := ![200, 256]) (S1 m c) g := by
  unfold Hand.H1 S1
  rw [H0_eq, Cert.KernelIdeal.Hand.V_v2, Cert.KernelIdeal.Hand.V_v8]
  exact (member_step (S0 m c) (W0 m c) (b0 m c) g).symm

theorem H2_eq (g : Fin 128) : Hand.H2 m c g = memberAt (d := ![200, 256]) (S2 m c) g := by
  unfold Hand.H2 S2
  rw [H1_eq, Cert.KernelIdeal.Hand.V_v3, Cert.KernelIdeal.Hand.V_v9]
  exact (member_step (S1 m c) (W1 m c) (b1 m c) g).symm

theorem H3_eq (g : Fin 128) : Hand.H3 m c g = memberAt (d := ![200, 256]) (S3 m c) g := by
  unfold Hand.H3 S3
  rw [H2_eq, Cert.KernelIdeal.Hand.V_v4, Cert.KernelIdeal.Hand.V_v10]
  exact (member_step (S2 m c) (W2 m c) (b2 m c) g).symm

theorem adjOf_eq (g : Fin 128) : Hand.adjOf m c g = memberAt (d := ![200, 200]) (Stack.adj (S2 m c)) g := by
  unfold Hand.adjOf
  rw [H2_eq]
  exact (member_adj (S2 m c) g).symm

theorem readOf_eq (g : Fin 128) :
    Hand.readOf m c g
      = shapeCast ⟨2, ![1, 256]⟩
          (memberAt (d := ![256]) (Stack.readout (S3 m c) (Wr1 m c) (br1 m c) (Wr2 m c) (br2 m c)) g)
          Cert.KernelIdeal.Facts₀.shapeCasts_S256_S1x256 := by
  unfold Hand.readOf
  rw [H3_eq, Cert.KernelIdeal.Hand.V_v5, Cert.KernelIdeal.Hand.V_v11, Cert.KernelIdeal.Hand.V_v6, Cert.KernelIdeal.Hand.V_v12]
  exact (member_readout (S3 m c) (Wr1 m c) (br1 m c) (Wr2 m c) (br2 m c) g).symm

/-- The kernel's adjacency array is the stack's soft adjacency after two iterations. -/
theorem Aout_eq : Hand.Aout m c = Stack.adj (S2 m c) := by
  funext i
  obtain ⟨g, p, q, rfl⟩ : ∃ (g : Fin 128) (p q : Fin 200), i = ix3 g p q := ⟨i 0, i 1, i 2, eq_ix3 i⟩
  show Hand.adjOf m c g (ix2 p q) = Stack.adj (S2 m c) (ix3 g p q)
  rw [adjOf_eq, memberAt_apply, cons_ix2]

/-- The kernel's [128, 256] result is the stack's readout after three iterations. -/
theorem Rout_eq :
    shapeCast ⟨2, ![128, 256]⟩ (Hand.Rout m c) Cert.KernelIdeal.Facts₀.shapeCasts_S128x1x256_S128x256
      = Stack.readout (S3 m c) (Wr1 m c) (br1 m c) (Wr2 m c) (br2 m c) := by
  funext i
  obtain ⟨g, j, rfl⟩ : ∃ (g : Fin 128) (j : Fin 256), i = ix2 g j := ⟨i 0, i 1, eq_ix2 i⟩
  refine (shapeCast_apply (Hand.Rout m c) _ (ix2 g j) (ix3 g (0 : Fin 1) j) (by
    rw [Shape.rowMajor_val_three, Shape.rowMajor_val_two]
    show (g.val * 1 + 0) * 256 + j.val = g.val * 256 + j.val
    omega)).trans ?_
  show Hand.readOf m c g (ix2 (0 : Fin 1) j) = _
  rw [readOf_eq, shapeCast_a_1a_apply, memberAt_apply, cons_ix1]

end Cert.Bridge

end
-- ==== Proof.lean ====
/-
  A message-passing network on 128 jets of 200 nodes: h = tanh(x·W_emb + b_emb); three times, the soft adjacency
  A = softmax over each row of (h·hᵀ)/16, the message A·h, and h ← tanh([h ‖ A·h]·W + b); then the readout
  Σ_nodes (tanh(h·W_r1 + b_r1)·W_r2 + b_r2) and the last adjacency. The kernel runs one jet per grid point and
  writes the update as h·W[:256] + (A·h)·W[256:] + b and the readout as (Σ_nodes …·W_r2) + 200·b_r2; the reference
  runs the whole stack with one product over the concatenation and adds b_r2 inside the sum.

  At the ideal values (extended reals, exact operations, format changes the identity) the two agree with no use of the
  inputs' finiteness: a matrix product into a zero accumulator and a `dot_general` are the same sum; a sum over 512
  terms is the sum of its two halves; a row's maximum from −∞ is unchanged by one more maximum with −∞; and a sum of
  (y + β) over 200 terms is the sum of the y plus 200·β, since addition on the extended reals is commutative and
  associative and 200·β is β added 200 times. Member g of each of the reference's stack layers is the kernel's layer
  on member g of the stack, so the kernel's arrays, tiled by its 128 blocks, are the reference's results.

  The two kernel programs' frames are the generated frame certificates; the reference's frame and run are read off
  the fold of its operation list; the idealization rewrote nothing, so `preserves` asks nothing.
-/
import proofs.«149841_g85813446574462_cont_9to1c4b_288_7_alg».proof.Defs
import proofs.«149841_g85813446574462_cont_9to1c4b_288_7_alg».proof.Proof.Gen.Kernel
import proofs.«149841_g85813446574462_cont_9to1c4b_288_7_alg».proof.Proof.Gen.Kernel.Frame
import proofs.«149841_g85813446574462_cont_9to1c4b_288_7_alg».proof.Proof.Gen.KernelIdeal
import proofs.«149841_g85813446574462_cont_9to1c4b_288_7_alg».proof.Proof.Gen.KernelIdeal.Frame
import proofs.«149841_g85813446574462_cont_9to1c4b_288_7_alg».proof.Proof.Gen.ReferenceIdeal
import proofs.«149841_g85813446574462_cont_9to1c4b_288_7_alg».proof.Proof.Gen.Pre_finite_inputs
import proofs.«149841_g85813446574462_cont_9to1c4b_288_7_alg».proof.Proof.Bridge
import Idealize.ShloMosaic.Adequacy
import Idealize.ShloMosaic.Init

noncomputable section

namespace Cert.Proof

open Idealize.ShloMosaic Idealize.SL.Sem

/-- The word-level kernel terminates without a fault and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference terminates and leaves its arguments: its run, the two results dropped. -/
theorem frame_ri : Cert.frame_ReferenceIdeal := fun m ρ _ =>
  (θ_run Cert.ReferenceIdeal.defs _ _).mono (fun _ h c => (h c).2.2) (Cert.ReferenceIdeal.Stack.run (F := Ideal) m ρ)

/-- The idealization rewrote no operation. -/
theorem preserves : Cert.preserves_Kernel_KernelIdeal := trivial

/-- From memories agreeing on the thirteen arguments both programs run, the kernel's [128, 256] result and its
    adjacency array are the reference's readout and last soft adjacency, and the arguments are unchanged. -/
theorem algebraic : Cert.algebraic_KernelIdeal_ReferenceIdeal := by
  intro m ρ m' ρ' _ hagree
  refine ⟨fun c => shapeCast Cert.KernelIdeal.S128x256 (Cert.KernelIdeal.Hand.Rout m c) Cert.KernelIdeal.Facts₀.shapeCasts_S128x1x256_S128x256,
    fun c => Cert.KernelIdeal.Hand.Aout m c, Cert.KernelIdeal.Hand.run (F := Ideal) m ρ, ?_⟩
  refine (θ_run Cert.ReferenceIdeal.defs _ _).mono (fun _ h c => ?_) (Cert.ReferenceIdeal.Stack.run (F := Ideal) m' ρ')
  obtain ⟨h78, h61, hargs⟩ := h c
  obtain ⟨g0, g1, g2, g3, g4, g5, g6, g7, g8, g9, g10, g11, g12⟩ := hagree c
  refine ⟨h78.trans ?_, h61.trans ?_, hargs⟩
  · rw [g0, g1, g2, g3, g4, g5, g6, g7, g8, g9, g10, g11, g12]
    exact (Cert.Bridge.Rout_eq m c).symm
  · rw [g0, g1, g2, g3, g4, g5, g6]
    exact (Cert.Bridge.Aout_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
